-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x6400000 : Shape := ⟨2, ![2, 6400000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x128 .f32) (main_arg1 : IVec S2x6400000 32) (main_arg2 : FVec F S128x16 .f32) (main_arg3 : FVec F S16 .f32) (main_arg4 : FVec F S16x8 .f32) (main_arg5 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg5 main_v13 main_v16
-- ==== Kernel.lean ====
abbrev S100000x128 : Shape := ⟨2, ![100000, 128]⟩
abbrev S2x6400000 : Shape := ⟨2, ![2, 6400000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S1x6400000 : Shape := ⟨2, ![1, 6400000]⟩
abbrev S6400000 : Shape := ⟨1, ![6400000]⟩
abbrev S100000 : Shape := ⟨1, ![100000]⟩
abbrev S6500000 : Shape := ⟨1, ![6500000]⟩
abbrev S_ : Shape := ⟨0, ![]⟩
abbrev S6500000x1 : Shape := ⟨2, ![6500000, 1]⟩
abbrev S6504448 : Shape := ⟨1, ![6504448]⟩
abbrev S6504448x1 : Shape := ⟨2, ![6504448, 1]⟩
abbrev S100000x16 : Shape := ⟨2, ![100000, 16]⟩
abbrev S5000x128 : Shape := ⟨2, ![5000, 128]⟩
abbrev S5000x16 : Shape := ⟨2, ![5000, 16]⟩
abbrev S6504448x16 : Shape := ⟨2, ![6504448, 16]⟩
abbrev S8192x16 : Shape := ⟨2, ![8192, 16]⟩
abbrev S8192x1 : Shape := ⟨2, ![8192, 1]⟩
abbrev S1x16 : Shape := ⟨2, ![1, 16]⟩
abbrev S100000x8 : Shape := ⟨2, ![100000, 8]⟩
abbrev S5000x8 : Shape := ⟨2, ![5000, 8]⟩
abbrev S6504448x8 : Shape := ⟨2, ![6504448, 8]⟩
abbrev S8192x8 : Shape := ⟨2, ![8192, 8]⟩
abbrev S1x8 : Shape := ⟨2, ![1, 8]⟩

abbrev nBuf : Space → Nat
  | .hbm => 90
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S100000, .i32⟩
  | .hbm, ⟨11, _⟩ => ⟨S6500000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S6500000, .i32⟩
  | .hbm, ⟨29, _⟩ => ⟨S6500000, .i1⟩
  | .hbm, ⟨30, _⟩ => ⟨S_, .i32⟩
  | .hbm, ⟨31, _⟩ => ⟨S6500000, .i32⟩
  | .hbm, ⟨32, _⟩ => ⟨S6500000, .i32⟩
  | .hbm, ⟨33, _⟩ => ⟨S6500000, .i32⟩
  | .hbm, ⟨34, _⟩ => ⟨S6500000x1, .i32⟩
  | .hbm, ⟨35, _⟩ => ⟨S6500000, .f32⟩
  | .hbm, ⟨36, _⟩ => ⟨S_, .i32⟩
  | .hbm, ⟨37, _⟩ => ⟨S6500000, .i32⟩
  | .hbm, ⟨38, _⟩ => ⟨S6500000, .i1⟩
  | .hbm, ⟨39, _⟩ => ⟨S_, .i32⟩
  | .hbm, ⟨40, _⟩ => ⟨S6500000, .i32⟩
  | .hbm, ⟨41, _⟩ => ⟨S6500000, .i32⟩
  | .hbm, ⟨42, _⟩ => ⟨S6500000, .i32⟩
  | .hbm, ⟨43, _⟩ => ⟨S6500000x1, .i32⟩
  | .hbm, ⟨44, _⟩ => ⟨S6500000, .f32⟩
  | .hbm, ⟨45, _⟩ => ⟨S6500000, .f32⟩
  | .hbm, ⟨46, _⟩ => ⟨S_, .i32⟩
  | .hbm, ⟨47, _⟩ => ⟨S_, .i32⟩
  | .hbm, ⟨48, _⟩ => ⟨S6504448, .i32⟩
  | .hbm, ⟨49, _⟩ => ⟨S_, .i32⟩
  | .hbm, ⟨50, _⟩ => ⟨S_, .i32⟩
  | .hbm, ⟨51, _⟩ => ⟨S6504448, .i32⟩
  | .hbm, ⟨52, _⟩ => ⟨S_, .i32⟩
  | .hbm, ⟨53, _⟩ => ⟨S_, .f32⟩
  | .hbm, ⟨54, _⟩ => ⟨S6504448, .f32⟩
  | .hbm, ⟨55, _⟩ => ⟨S6504448x1, .f32⟩
  | .hbm, ⟨56, _⟩ => ⟨S100000x16, .f32⟩
  | .hbm, ⟨57, _⟩ => ⟨S_, .i32⟩
  | .hbm, ⟨58, _⟩ => ⟨S6504448, .i32⟩
  | .hbm, ⟨59, _⟩ => ⟨S6504448, .i1⟩
  | .hbm, ⟨60, _⟩ => ⟨S_, .i32⟩
  | .hbm, ⟨61, _⟩ => ⟨S6504448, .i32⟩
  | .hbm, ⟨62, _⟩ => ⟨S6504448, .i32⟩
  | .hbm, ⟨63, _⟩ => ⟨S6504448, .i32⟩
  | .hbm, ⟨64, _⟩ => ⟨S6504448x1, .i32⟩
  | .hbm, ⟨65, _⟩ => ⟨S6504448x16, .f32⟩
  | .hbm, ⟨66, _⟩ => ⟨S6504448x16, .f32⟩
  | .hbm, ⟨67, _⟩ => ⟨S_, .f32⟩
  | .hbm, ⟨68, _⟩ => ⟨S100000x16, .f32⟩
  | .hbm, ⟨69, _⟩ => ⟨S6504448x1, .i32⟩
  | .hbm, ⟨70, _⟩ => ⟨S100000x16, .f32⟩
  | .hbm, ⟨71, _⟩ => ⟨S1x16, .f32⟩
  | .hbm, ⟨72, _⟩ => ⟨S100000x16, .f32⟩
  | .hbm, ⟨73, _⟩ => ⟨S100000x8, .f32⟩
  | .hbm, ⟨74, _⟩ => ⟨S_, .i32⟩
  | .hbm, ⟨75, _⟩ => ⟨S6504448, .i32⟩
  | .hbm, ⟨76, _⟩ => ⟨S6504448, .i1⟩
  | .hbm, ⟨77, _⟩ => ⟨S_, .i32⟩
  | .hbm, ⟨78, _⟩ => ⟨S6504448, .i32⟩
  | .hbm, ⟨79, _⟩ => ⟨S6504448, .i32⟩
  | .hbm, ⟨80, _⟩ => ⟨S6504448, .i32⟩
  | .hbm, ⟨81, _⟩ => ⟨S6504448x1, .i32⟩
  | .hbm, ⟨82, _⟩ => ⟨S6504448x8, .f32⟩
  | .hbm, ⟨83, _⟩ => ⟨S6504448x8, .f32⟩
  | .hbm, ⟨84, _⟩ => ⟨S_, .f32⟩
  | .hbm, ⟨85, _⟩ => ⟨S100000x8, .f32⟩
  | .hbm, ⟨86, _⟩ => ⟨S6504448x1, .i32⟩
  | .hbm, ⟨87, _⟩ => ⟨S100000x8, .f32⟩
  | .hbm, ⟨88, _⟩ => ⟨S1x8, .f32⟩
  | .hbm, ⟨89, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S8192x16, .f32⟩
  | .local _ .vmem, ⟨6, _⟩ => ⟨S8192x16, .f32⟩
  | .local _ .vmem, ⟨7, _⟩ => ⟨S8192x1, .f32⟩
  | .local _ .vmem, ⟨8, _⟩ => ⟨S8192x1, .f32⟩
  | .local _ .vmem, ⟨9, _⟩ => ⟨S8192x16, .f32⟩
  | .local _ .vmem, ⟨10, _⟩ => ⟨S8192x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S16x8, .f32⟩
  | .local _ .vmem, ⟨19, _⟩ => ⟨S5000x8, .f32⟩
  | .local _ .vmem, ⟨20, _⟩ => ⟨S5000x8, .f32⟩
  | .local _ .vmem, ⟨21, _⟩ => ⟨S8192x8, .f32⟩
  | .local _ .vmem, ⟨22, _⟩ => ⟨S8192x8, .f32⟩
  | .local _ .vmem, ⟨23, _⟩ => ⟨S8192x1, .f32⟩
  | .local _ .vmem, ⟨24, _⟩ => ⟨S8192x1, .f32⟩
  | .local _ .vmem, ⟨25, _⟩ => ⟨S8192x8, .f32⟩
  | .local _ .vmem, ⟨26, _⟩ => ⟨S8192x8, .f32⟩
  | .local _ .vmem, ⟨27, _⟩ => ⟨S5000x8, .f32⟩
  | .local _ .vmem, ⟨28, _⟩ => ⟨S5000x8, .f32⟩
  | .local _ .vmem, ⟨29, _⟩ => ⟨S1x8, .f32⟩
  | .local _ .vmem, ⟨30, _⟩ => ⟨S5000x8, .f32⟩
  | .local _ .vmem, ⟨31, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_call1_v0 : Ref sig .tc := ⟨.hbm, 47, rfl⟩
abbrev main_v30 : Ref sig .tc := ⟨.hbm, 48, rfl⟩
abbrev main_c_7 : Ref sig .tc := ⟨.hbm, 49, rfl⟩
abbrev main_call2_v0 : Ref sig .tc := ⟨.hbm, 50, rfl⟩
abbrev main_v31 : Ref sig .tc := ⟨.hbm, 51, rfl⟩
abbrev main_c_8 : Ref sig .tc := ⟨.hbm, 52, rfl⟩
abbrev main_call3_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_c_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_12 : Ref sig .tc := ⟨.hbm, 74, rfl⟩
abbrev main_v49 : Ref sig .tc := ⟨.hbm, 75, rfl⟩
abbrev main_v50 : Ref sig .tc := ⟨.hbm, 76, rfl⟩
abbrev main_c_13 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![794], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![794], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x8 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x8 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x8 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x8 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x8 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S100000_S6500000_d0 : Shape.Concatenates [S6400000, S100000] S6500000 0
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  pads_S6500000_S6504448_044480 : S6500000.Pads (![0] : Fin 1 → Nat) ![4448] ![0] S6504448
  h_S_ : 0 < S_.numel
  bcast_S6504448_S6504448x1_0 : S6504448.BroadcastsInDim S6504448x1 (![0] : Fin 1 → Fin S6504448x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S_S6504448 : S_.BroadcastsInDim S6504448 (![] : Fin 0 → Fin S6504448.rank)
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x16 : S8192x1.Broadcasts S8192x16
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x8_S16x8_0_0 : ∀ a, (![0, 0] : Fin 2 → Nat) a + S16x8.size a ≤ S16x8.size a
  h_S16x8 : 0 < S16x8.numel
  inb_S5000x8_S5000x8_0_0 : ∀ a, (![0, 0] : Fin 2 → Nat) a + S5000x8.size a ≤ S5000x8.size a
  h_S5000x8 : 0 < S5000x8.numel
  inb_S8192x8_S8192x8_0_0 : ∀ a, (![0, 0] : Fin 2 → Nat) a + S8192x8.size a ≤ S8192x8.size a
  h_S8192x8 : 0 < S8192x8.numel
  shapeCasts_S8192x8_S8192x8 : S8192x8.ShapeCasts S8192x8
  broadcasts_S8192x1_S8192x8 : S8192x1.Broadcasts S8192x8
  bcast_S_S100000x8 : S_.BroadcastsInDim S100000x8 (![] : Fin 0 → Fin S100000x8.rank)
  shapeCasts_S8_S1x8 : S8.ShapeCasts S1x8
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S5000x128_S128x16_S5000x16_1_0_0_1_n_n_wf : DotDims.WF S5000x128 S128x16 S5000x16 [1] [0] [0] [1] [] []
  gather_S100000x16_S6504448x1_S6504448x16_1_0_n_n_0_1_116_wf : GatherDims.WF S100000x16 S6504448x1 S6504448x16 [1] [0] [] [0] [] 1 ![1, 16]
  scatter_S100000x16_S6504448x1_S6504448x16_1_0_0_1_wf : ScatterDims.WF S100000x16 S6504448x1 S6504448x16 [1] [0] [0] 1
  dot_S5000x16_S16x8_S5000x8_1_0_0_1_n_n_wf : DotDims.WF S5000x16 S16x8 S5000x8 [1] [0] [0] [1] [] []
  gather_S100000x8_S6504448x1_S6504448x8_1_0_n_n_0_1_18_wf : GatherDims.WF S100000x8 S6504448x1 S6504448x8 [1] [0] [] [0] [] 1 ![1, 8]
  scatter_S100000x8_S6504448x1_S6504448x8_1_0_0_1_wf : ScatterDims.WF S100000x8 S6504448x1 S6504448x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x16.size a ≤ S6504448x16.size a
  hwx1_0 : ∀ i : grid1.Coords, EltTy.bits .f32 = 32 ∨ (Rect.block (s := S6504448x16) S8192x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S6504448x1.size a
  hwx1_1 : ∀ i : grid1.Coords, EltTy.bits .f32 = 32 ∨ (Rect.block (s := S6504448x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x16.size a ≤ S6504448x16.size a
  hwx1_2 : ∀ i : grid1.Coords, EltTy.bits .f32 = 32 ∨ (Rect.block (s := S6504448x16) S8192x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x8.size a ≤ S16x8.size a
  hwx3_1 : ∀ i : grid3.Coords, EltTy.bits .f32 = 32 ∨ (Rect.block (s := S16x8) S16x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x8.size a ≤ S100000x8.size a
  hwx3_2 : ∀ i : grid3.Coords, EltTy.bits .f32 = 32 ∨ (Rect.block (s := S100000x8) S5000x8.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x8.size a ≤ S6504448x8.size a
  hwx4_0 : ∀ i : grid4.Coords, EltTy.bits .f32 = 32 ∨ (Rect.block (s := S6504448x8) S8192x8.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x1.size a ≤ S6504448x1.size a
  hwx4_1 : ∀ i : grid4.Coords, EltTy.bits .f32 = 32 ∨ (Rect.block (s := S6504448x1) S8192x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x8.size a ≤ S6504448x8.size a
  hwx4_2 : ∀ i : grid4.Coords, EltTy.bits .f32 = 32 ∨ (Rect.block (s := S6504448x8) S8192x8.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x8.size a ≤ S100000x8.size a
  hwx5_0 : ∀ i : grid5.Coords, EltTy.bits .f32 = 32 ∨ (Rect.block (s := S100000x8) S5000x8.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x8.size a ≤ S1x8.size a
  hwx5_1 : ∀ i : grid5.Coords, EltTy.bits .f32 = 32 ∨ (Rect.block (s := S1x8) S1x8.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x8.size a ≤ S100000x8.size a
  hwx5_2 : ∀ i : grid5.Coords, EltTy.bits .f32 = 32 ∨ (Rect.block (s := S100000x8) S5000x8.size (cc5_transform_2 i) (hinb5_2 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S6504448x1_S6504448x16_1_0_n_n_0_1_116 : GatherDims S100000x16 S6504448x1 S6504448x16 where
  offsetDims := [1]
  collapsedSliceDims := [0]
  operandBatchingDims := []
  startIndicesBatchingDims := []
  startIndexMap := [0]
  indexVectorDim := 1
  sliceSizes := ![1, 16]
  wf := gather_S100000x16_S6504448x1_S6504448x16_1_0_n_n_0_1_116_wf
def scatter_S100000x16_S6504448x1_S6504448x16_1_0_0_1 : ScatterDims S100000x16 S6504448x1 S6504448x16 where
  updateWindowDims := [1]
  insertedWindowDims := [0]
  scatterDimsToOperandDims := [0]
  indexVectorDim := 1
  wf := scatter_S100000x16_S6504448x1_S6504448x16_1_0_0_1_wf
def dot_S5000x16_S16x8_S5000x8_1_0_0_1_n_n : DotDims S5000x16 S16x8 S5000x8 where
  lhsContracting := [1]
  rhsContracting := [0]
  lhsNonContracting := [0]
  rhsNonContracting := [1]
  lhsBatch := []
  rhsBatch := []
  wf := dot_S5000x16_S16x8_S5000x8_1_0_0_1_n_n_wf
def gather_S100000x8_S6504448x1_S6504448x8_1_0_n_n_0_1_18 : GatherDims S100000x8 S6504448x1 S6504448x8 where
  offsetDims := [1]
  collapsedSliceDims := [0]
  operandBatchingDims := []
  startIndicesBatchingDims := []
  startIndexMap := [0]
  indexVectorDim := 1
  sliceSizes := ![1, 8]
  wf := gather_S100000x8_S6504448x1_S6504448x8_1_0_n_n_0_1_18_wf
def scatter_S100000x8_S6504448x1_S6504448x8_1_0_0_1 : ScatterDims S100000x8 S6504448x1 S6504448x8 where
  updateWindowDims := [1]
  insertedWindowDims := [0]
  scatterDimsToOperandDims := [0]
  indexVectorDim := 1
  wf := scatter_S100000x8_S6504448x1_S6504448x8_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S8192x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S8192x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S5000x8.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v55) S8192x8.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S8192x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S8192x8.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v59) S5000x8.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S1x8.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S5000x8.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x6400000 : Shape := ⟨2, ![2, 6400000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S1x6400000 : Shape := ⟨2, ![1, 6400000]⟩
abbrev S6400000 : Shape := ⟨1, ![6400000]⟩
abbrev S100000 : Shape := ⟨1, ![100000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S6500000x16 : Shape := ⟨2, ![6500000, 16]⟩
abbrev S1x16 : Shape := ⟨2, ![1, 16]⟩
abbrev S100000x8 : Shape := ⟨2, ![100000, 8]⟩
abbrev S6500000x8 : Shape := ⟨2, ![6500000, 8]⟩
abbrev S1x8 : Shape := ⟨2, ![1, 8]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S100000, .i32⟩
  | .hbm, ⟨11, _⟩ => ⟨S6500000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S6500000, .i32⟩
  | .hbm, ⟨29, _⟩ => ⟨S6500000, .i1⟩
  | .hbm, ⟨30, _⟩ => ⟨S_, .i32⟩
  | .hbm, ⟨31, _⟩ => ⟨S6500000, .i32⟩
  | .hbm, ⟨32, _⟩ => ⟨S6500000, .i32⟩
  | .hbm, ⟨33, _⟩ => ⟨S6500000, .i32⟩
  | .hbm, ⟨34, _⟩ => ⟨S6500000x1, .i32⟩
  | .hbm, ⟨35, _⟩ => ⟨S6500000, .f32⟩
  | .hbm, ⟨36, _⟩ => ⟨S_, .i32⟩
  | .hbm, ⟨37, _⟩ => ⟨S6500000, .i32⟩
  | .hbm, ⟨38, _⟩ => ⟨S6500000, .i1⟩
  | .hbm, ⟨39, _⟩ => ⟨S_, .i32⟩
  | .hbm, ⟨40, _⟩ => ⟨S6500000, .i32⟩
  | .hbm, ⟨41, _⟩ => ⟨S6500000, .i32⟩
  | .hbm, ⟨42, _⟩ => ⟨S6500000, .i32⟩
  | .hbm, ⟨43, _⟩ => ⟨S6500000x1, .i32⟩
  | .hbm, ⟨44, _⟩ => ⟨S6500000, .f32⟩
  | .hbm, ⟨45, _⟩ => ⟨S6500000, .f32⟩
  | .hbm, ⟨46, _⟩ => ⟨S100000x16, .f32⟩
  | .hbm, ⟨47, _⟩ => ⟨S_, .i32⟩
  | .hbm, ⟨48, _⟩ => ⟨S6500000, .i32⟩
  | .hbm, ⟨49, _⟩ => ⟨S6500000, .i1⟩
  | .hbm, ⟨50, _⟩ => ⟨S_, .i32⟩
  | .hbm, ⟨51, _⟩ => ⟨S6500000, .i32⟩
  | .hbm, ⟨52, _⟩ => ⟨S6500000, .i32⟩
  | .hbm, ⟨53, _⟩ => ⟨S6500000, .i32⟩
  | .hbm, ⟨54, _⟩ => ⟨S6500000x1, .i32⟩
  | .hbm, ⟨55, _⟩ => ⟨S6500000x16, .f32⟩
  | .hbm, ⟨56, _⟩ => ⟨S6500000x1, .f32⟩
  | .hbm, ⟨57, _⟩ => ⟨S6500000x16, .f32⟩
  | .hbm, ⟨58, _⟩ => ⟨S6500000x16, .f32⟩
  | .hbm, ⟨59, _⟩ => ⟨S_, .f32⟩
  | .hbm, ⟨60, _⟩ => ⟨S100000x16, .f32⟩
  | .hbm, ⟨61, _⟩ => ⟨S6500000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x8, .f32⟩
  | .hbm, ⟨70, _⟩ => ⟨S_, .i32⟩
  | .hbm, ⟨71, _⟩ => ⟨S6500000, .i32⟩
  | .hbm, ⟨72, _⟩ => ⟨S6500000, .i1⟩
  | .hbm, ⟨73, _⟩ => ⟨S_, .i32⟩
  | .hbm, ⟨74, _⟩ => ⟨S6500000, .i32⟩
  | .hbm, ⟨75, _⟩ => ⟨S6500000, .i32⟩
  | .hbm, ⟨76, _⟩ => ⟨S6500000, .i32⟩
  | .hbm, ⟨77, _⟩ => ⟨S6500000x1, .i32⟩
  | .hbm, ⟨78, _⟩ => ⟨S6500000x8, .f32⟩
  | .hbm, ⟨79, _⟩ => ⟨S6500000x1, .f32⟩
  | .hbm, ⟨80, _⟩ => ⟨S6500000x8, .f32⟩
  | .hbm, ⟨81, _⟩ => ⟨S6500000x8, .f32⟩
  | .hbm, ⟨82, _⟩ => ⟨S_, .f32⟩
  | .hbm, ⟨83, _⟩ => ⟨S100000x8, .f32⟩
  | .hbm, ⟨84, _⟩ => ⟨S6500000x1, .i32⟩
  | .hbm, ⟨85, _⟩ => ⟨S100000x8, .f32⟩
  | .hbm, ⟨86, _⟩ => ⟨S1x8, .f32⟩
  | .hbm, ⟨87, _⟩ => ⟨S100000x8, .f32⟩
  | .hbm, ⟨88, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S100000_S6500000_d0 : Shape.Concatenates [S6400000, S100000] S6500000 0
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6500000x1_S6500000x8_0_1 : S6500000x1.BroadcastsInDim S6500000x8 (![0, 1] : Fin 2 → Fin S6500000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x128_S128x16_S100000x16_1_0_0_1_n_n_wf : DotDims.WF S100000x128 S128x16 S100000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x8_S100000x8_1_0_0_1_n_n_wf : DotDims.WF S100000x16 S16x8 S100000x8 [1] [0] [0] [1] [] []
  gather_S100000x8_S6500000x1_S6500000x8_1_0_n_n_0_1_18_wf : GatherDims.WF S100000x8 S6500000x1 S6500000x8 [1] [0] [] [0] [] 1 ![1, 8]
  scatter_S100000x8_S6500000x1_S6500000x8_1_0_0_1_wf : ScatterDims.WF S100000x8 S6500000x1 S6500000x8 [1] [0] [0] 1

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S6500000x1_S6500000x8_1_0_n_n_0_1_18 : GatherDims S100000x8 S6500000x1 S6500000x8 where
  offsetDims := [1]
  collapsedSliceDims := [0]
  operandBatchingDims := []
  startIndicesBatchingDims := []
  startIndexMap := [0]
  indexVectorDim := 1
  sliceSizes := ![1, 8]
  wf := gather_S100000x8_S6500000x1_S6500000x8_1_0_n_n_0_1_18_wf
def scatter_S100000x8_S6500000x1_S6500000x8_1_0_0_1 : ScatterDims S100000x8 S6500000x1 S6500000x8 where
  updateWindowDims := [1]
  insertedWindowDims := [0]
  scatterDimsToOperandDims := [0]
  indexVectorDim := 1
  wf := scatter_S100000x8_S6500000x1_S6500000x8_1_0_0_1_wf

class Facts : Prop extends Facts₀ where

variable [Facts]
-- ==== Proof.Spec.lean ====
/-
  The arithmetic of one graph-convolution layer, as whole-array functions over the extended reals.

  A layer takes node features `h : [N, K]`, a weight `w : [K, D]`, a bias row `b : [1, D]`, and per-edge data; it
  forms `h · w`, reads that product at each edge's source node, scales the row by the edge's weight, sums the
  rows that share a target node, and adds the bias (followed, in the first layer, by a maximum with zero).  The
  dense steps are the four functions below, each given index by index; the two irregular steps (the read at a
  source node and the sum by target node) are the host's own gather and accumulating scatter.
-/
import Idealize.ShloMosaic.PureOps.Ideal
import Idealize.ShloMosaic.Lib.ValueIdx

noncomputable section

namespace Cert.Gcn

open Idealize.ShloMosaic Idealize.ShloMosaic.ValueIdx

/-- The matrix product `x · w`: entry `(r, c)` is `∑ k, x (r, k) · w (k, c)`. -/
def lin {N K D : Nat} (x : (⟨2, ![N, K]⟩ : Shape).Idx → EReal) (w : (⟨2, ![K, D]⟩ : Shape).Idx → EReal) :
    (⟨2, ![N, D]⟩ : Shape).Idx → EReal :=
  fun i => ∑ k : Fin K, x (ix2 (i 0 : Fin N) k) * w (ix2 k (i 1 : Fin D))

/-- Each row `r` of `g` scaled by the one entry `s (r, 0)` of a column. -/
def scaleRows {n D : Nat} (g : (⟨2, ![n, D]⟩ : Shape).Idx → EReal) (s : (⟨2, ![n, 1]⟩ : Shape).Idx → EReal) :
    (⟨2, ![n, D]⟩ : Shape).Idx → EReal :=
  fun i => g i * s (ix2 (i 0 : Fin n) (0 : Fin 1))

/-- The one row `b` added to every row of `a`. -/
def addRow {N D : Nat} (a : (⟨2, ![N, D]⟩ : Shape).Idx → EReal) (b : (⟨2, ![1, D]⟩ : Shape).Idx → EReal) :
    (⟨2, ![N, D]⟩ : Shape).Idx → EReal :=
  fun i => a i + b (ix2 (0 : Fin 1) (i 1 : Fin D))

/-- The one row `b` added to every row of `a`, then the maximum with zero. -/
def reluAddRow {N D : Nat} (a : (⟨2, ![N, D]⟩ : Shape).Idx → EReal) (b : (⟨2, ![1, D]⟩ : Shape).Idx → EReal) :
    (⟨2, ![N, D]⟩ : Shape).Idx → EReal :=
  fun i => max (a i + b (ix2 (0 : Fin 1) (i 1 : Fin D))) 0

end Cert.Gcn

end
-- ==== Proof.Terms.lean ====
/-
  The two programs' results as composed terms of the six argument arrays, stage by stage.

  Both programs compute, from the edge list, the source and target node of every edge (a self loop per node
  appended), each node's degree, and each edge's weight `deg(src)^(-1/2) · deg(dst)^(-1/2)`; then twice a layer
  "multiply the features by a weight matrix, read the product at each edge's source, scale by the edge's weight,
  sum by target node, add a bias" (with a maximum against zero after the first).  The kernel program first
  lengthens the three per-edge arrays from 6500000 to 6504448 entries (index 0, weight 0 in the new places), so
  that they split into whole blocks of 8192 rows, and does the dense steps block by block; the reference does not.
-/
import proofs.«151925_j69157563400469_1_alg».proof.KernelIdeal
import proofs.«151925_j69157563400469_1_alg».proof.ReferenceIdeal
import proofs.«151925_j69157563400469_1_alg».proof.Proof.Gen.KernelIdeal
import proofs.«151925_j69157563400469_1_alg».proof.Proof.Gen.ReferenceIdeal
import proofs.«151925_j69157563400469_1_alg».proof.Proof.Spec

set_option maxRecDepth 8192

noncomputable section

/-! ## The kernel program's stages -/

namespace Cert.KernelIdeal.Term

open Cert.KernelIdeal Idealize.ShloMosaic Idealize.ShloMosaic.TcCoe
open Cert.KernelIdeal.Facts₀ Cert.KernelIdeal.Facts

variable {F : FTy → Type} [FloatOps F]

/-- The edges' source nodes with one self loop per node appended: row 0 of the edge list, then 0 … 99999. -/
def src (ei : IVec S2x6400000 32) : IVec S6500000 32 :=
  concatenate S6500000 0 [⟨S6400000, (shapeCast _ (extractStridedSlice S1x6400000 ![0, 0] ei slices_S2x6400000_S1x6400000_0_0) shapeCasts_S1x6400000_S6400000)⟩, ⟨S100000, (iotaInDim S100000 32 0)⟩] concatenates_S6400000_S100000_S6500000_d0

/-- The edges' target nodes with the same self loops appended: row 1 of the edge list, then 0 … 99999. -/
def dst (ei : IVec S2x6400000 32) : IVec S6500000 32 :=
  concatenate S6500000 0 [⟨S6400000, (shapeCast _ (extractStridedSlice S1x6400000 ![1, 0] ei slices_S2x6400000_S1x6400000_1_0) shapeCasts_S1x6400000_S6400000)⟩, ⟨S100000, (iotaInDim S100000 32 0)⟩] concatenates_S6400000_S100000_S6500000_d0

/-- Each node's degree: the number of edges (self loop included) that target it, as a sum of ones. -/
def deg (ei : IVec S2x6400000 32) : FVec F S100000 .f32 :=
  Host.scatterAdd scatter_S100000_S6500000x1_S6500000_n_0_0_1 (broadcastInDim S100000 ![] bcast_S_S100000 (constant S_ .f32 0x00000000#32)) (broadcastInDim S6500000x1 ![0] bcast_S6500000_S6500000x1_0 (dst ei)) (broadcastInDim S6500000 ![] bcast_S_S6500000 (constant S_ .f32 0x3F800000#32))

/-- `deg^(-1/2)` where the degree is positive, zero elsewhere. -/
def dis (ei : IVec S2x6400000 32) : FVec F S100000 .f32 :=
  select (cmpf (F := F) .ogt (deg ei) (broadcastInDim S100000 ![] bcast_S_S100000 (constant S_ .f32 0x00000000#32))) (Host.rsqrt (deg ei)) (broadcastInDim S100000 ![] bcast_S_S100000 (id (constant S_ .f32 0x00000000#32)))

/-- A node index read the way array indexing reads it: a negative index counts from the end. -/
def wrap (s : IVec S6500000 32) : IVec S6500000 32 :=
  select (cmpi .slt s (broadcastInDim S6500000 ![] bcast_S_S6500000 (constantI S_ 32 0#32))) (addi s (broadcastInDim S6500000 ![] bcast_S_S6500000 (constantI S_ 32 100000#32))) s

/-- Each edge's weight: `dis` at its source times `dis` at its target. -/
def norm (ei : IVec S2x6400000 32) : FVec F S6500000 .f32 :=
  mulf (Host.gather gather_S100000_S6500000x1_S6500000_n_0_n_n_0_1_1 (dis ei) (broadcastInDim S6500000x1 ![0] bcast_S6500000_S6500000x1_0 (wrap (src ei)))) (Host.gather gather_S100000_S6500000x1_S6500000_n_0_n_n_0_1_1 (dis ei) (broadcastInDim S6500000x1 ![0] bcast_S6500000_S6500000x1_0 (wrap (dst ei))))

/-- The sources lengthened to 6504448 entries, the new ones node 0. -/
def srcP (ei : IVec S2x6400000 32) : IVec S6504448 32 :=
  pad S6504448 ![0] ![4448] ![0] (src ei) (id (constantI S_ 32 0#32)) pads_S6500000_S6504448_044480 h_S_

/-- The targets lengthened to 6504448 entries, the new ones node 0. -/
def dstP (ei : IVec S2x6400000 32) : IVec S6504448 32 :=
  pad S6504448 ![0] ![4448] ![0] (dst ei) (id (constantI S_ 32 0#32)) pads_S6500000_S6504448_044480 h_S_

/-- The weights lengthened to 6504448 entries, the new ones zero (the integer 0 converted). -/
def normP (ei : IVec S2x6400000 32) : FVec F S6504448 .f32 :=
  pad S6504448 ![0] ![4448] ![0] (norm (F := F) ei) (sitofp (F := F) .f32 (constantI S_ 32 0#32)) pads_S6500000_S6504448_044480 h_S_

/-- The lengthened weights as a column. -/
def norm2d (ei : IVec S2x6400000 32) : FVec F S6504448x1 .f32 :=
  broadcastInDim S6504448x1 ![0] bcast_S6504448_S6504448x1_0 (normP (F := F) ei)

/-- `wrap` on the lengthened arrays. -/
def wrapP (s : IVec S6504448 32) : IVec S6504448 32 :=
  select (cmpi .slt s (broadcastInDim S6504448 ![] bcast_S_S6504448 (constantI S_ 32 0#32))) (addi s (broadcastInDim S6504448 ![] bcast_S_S6504448 (constantI S_ 32 100000#32))) s

/-- The column of row indices the gathers read at. -/
def srcIdx (ei : IVec S2x6400000 32) : IVec S6504448x1 32 :=
  broadcastInDim S6504448x1 ![0] bcast_S6504448_S6504448x1_0 (wrapP (srcP ei))

/-- The column of row indices the scatters add at. -/
def dstIdx (ei : IVec S2x6400000 32) : IVec S6504448x1 32 :=
  broadcastInDim S6504448x1 ![0] bcast_S6504448_S6504448x1_0 (dstP ei)

/-- One layer's sum by target node at width 16: the product's rows read at the sources, scaled, summed. -/
def agg16 (hw : FVec Ideal S100000x16 .f32) (ei : IVec S2x6400000 32) : FVec Ideal S100000x16 .f32 :=
  Host.scatterAdd scatter_S100000x16_S6504448x1_S6504448x16_1_0_0_1 (broadcastInDim S100000x16 ![] bcast_S_S100000x16 (constant S_ .f32 0x00000000#32)) (dstIdx ei)
    (Cert.Gcn.scaleRows (Host.gather gather_S100000x16_S6504448x1_S6504448x16_1_0_n_n_0_1_116 hw (srcIdx ei)) (norm2d (F := Ideal) ei))

/-- The same at width 8. -/
def agg8 (hw : FVec Ideal S100000x8 .f32) (ei : IVec S2x6400000 32) : FVec Ideal S100000x8 .f32 :=
  Host.scatterAdd scatter_S100000x8_S6504448x1_S6504448x8_1_0_0_1 (broadcastInDim S100000x8 ![] bcast_S_S100000x8 (constant S_ .f32 0x00000000#32)) (dstIdx ei)
    (Cert.Gcn.scaleRows (Host.gather gather_S100000x8_S6504448x1_S6504448x8_1_0_n_n_0_1_18 hw (srcIdx ei)) (norm2d (F := Ideal) ei))

/-- The first layer's output: the sum, the bias, the maximum with zero. -/
def hidden (x : FVec Ideal S100000x128 .f32) (ei : IVec S2x6400000 32) (w1 : FVec Ideal S128x16 .f32) (b1 : FVec Ideal S16 .f32) :
    FVec Ideal S100000x16 .f32 :=
  Cert.Gcn.reluAddRow (agg16 (Cert.Gcn.lin x w1) ei) (shapeCast S1x16 b1 shapeCasts_S16_S1x16)

/-- THE KERNEL PROGRAM'S RESULT as a function of the six argument arrays. -/
def out (x : FVec Ideal S100000x128 .f32) (ei : IVec S2x6400000 32) (w1 : FVec Ideal S128x16 .f32) (b1 : FVec Ideal S16 .f32)
    (w2 : FVec Ideal S16x8 .f32) (b2 : FVec Ideal S8 .f32) : FVec Ideal S100000x8 .f32 :=
  Cert.Gcn.addRow (agg8 (Cert.Gcn.lin (hidden x ei w1 b1) w2) ei) (shapeCast S1x8 b2 shapeCasts_S8_S1x8)

end Cert.KernelIdeal.Term

/-! ## The reference program's stages -/

namespace Cert.ReferenceIdeal.Term

open Cert.ReferenceIdeal Idealize.ShloMosaic Idealize.ShloMosaic.TcCoe
open Cert.ReferenceIdeal.Facts₀ Cert.ReferenceIdeal.Facts

variable {F : FTy → Type} [FloatOps F]

/-- The edges' source nodes with one self loop per node appended: row 0 of the edge list, then 0 … 99999. -/
def src (ei : IVec S2x6400000 32) : IVec S6500000 32 :=
  concatenate S6500000 0 [⟨S6400000, (shapeCast _ (extractStridedSlice S1x6400000 ![0, 0] ei slices_S2x6400000_S1x6400000_0_0) shapeCasts_S1x6400000_S6400000)⟩, ⟨S100000, (iotaInDim S100000 32 0)⟩] concatenates_S6400000_S100000_S6500000_d0

/-- The edges' target nodes with the same self loops appended: row 1 of the edge list, then 0 … 99999. -/
def dst (ei : IVec S2x6400000 32) : IVec S6500000 32 :=
  concatenate S6500000 0 [⟨S6400000, (shapeCast _ (extractStridedSlice S1x6400000 ![1, 0] ei slices_S2x6400000_S1x6400000_1_0) shapeCasts_S1x6400000_S6400000)⟩, ⟨S100000, (iotaInDim S100000 32 0)⟩] concatenates_S6400000_S100000_S6500000_d0

/-- Each node's degree: the number of edges (self loop included) that target it, as a sum of ones. -/
def deg (ei : IVec S2x6400000 32) : FVec F S100000 .f32 :=
  Host.scatterAdd scatter_S100000_S6500000x1_S6500000_n_0_0_1 (broadcastInDim S100000 ![] bcast_S_S100000 (constant S_ .f32 0x00000000#32)) (broadcastInDim S6500000x1 ![0] bcast_S6500000_S6500000x1_0 (dst ei)) (broadcastInDim S6500000 ![] bcast_S_S6500000 (constant S_ .f32 0x3F800000#32))

/-- `deg^(-1/2)` where the degree is positive, zero elsewhere. -/
def dis (ei : IVec S2x6400000 32) : FVec F S100000 .f32 :=
  select (cmpf (F := F) .ogt (deg ei) (broadcastInDim S100000 ![] bcast_S_S100000 (constant S_ .f32 0x00000000#32))) (Host.rsqrt (deg ei)) (broadcastInDim S100000 ![] bcast_S_S100000 (id (constant S_ .f32 0x00000000#32)))

/-- A node index read the way array indexing reads it: a negative index counts from the end. -/
def wrap (s : IVec S6500000 32) : IVec S6500000 32 :=
  select (cmpi .slt s (broadcastInDim S6500000 ![] bcast_S_S6500000 (constantI S_ 32 0#32))) (addi s (broadcastInDim S6500000 ![] bcast_S_S6500000 (constantI S_ 32 100000#32))) s

/-- Each edge's weight: `dis` at its source times `dis` at its target. -/
def norm (ei : IVec S2x6400000 32) : FVec F S6500000 .f32 :=
  mulf (Host.gather gather_S100000_S6500000x1_S6500000_n_0_n_n_0_1_1 (dis ei) (broadcastInDim S6500000x1 ![0] bcast_S6500000_S6500000x1_0 (wrap (src ei)))) (Host.gather gather_S100000_S6500000x1_S6500000_n_0_n_n_0_1_1 (dis ei) (broadcastInDim S6500000x1 ![0] bcast_S6500000_S6500000x1_0 (wrap (dst ei))))

/-- The column of row indices the gathers read at. -/
def srcIdx (ei : IVec S2x6400000 32) : IVec S6500000x1 32 :=
  broadcastInDim S6500000x1 ![0] bcast_S6500000_S6500000x1_0 (wrap (src ei))

/-- The column of row indices the scatters add at. -/
def dstIdx (ei : IVec S2x6400000 32) : IVec S6500000x1 32 :=
  broadcastInDim S6500000x1 ![0] bcast_S6500000_S6500000x1_0 (dst ei)

/-- One layer's sum by target node at width 16. -/
def agg16 (hw : FVec F S100000x16 .f32) (ei : IVec S2x6400000 32) : FVec F S100000x16 .f32 :=
  Host.scatterAdd scatter_S100000x16_S6500000x1_S6500000x16_1_0_0_1 (broadcastInDim S100000x16 ![] bcast_S_S100000x16 (constant S_ .f32 0x00000000#32)) (dstIdx ei)
    (mulf (Host.gather gather_S100000x16_S6500000x1_S6500000x16_1_0_n_n_0_1_116 hw (srcIdx ei)) (broadcastInDim S6500000x16 ![0, 1] bcast_S6500000x1_S6500000x16_0_1 (broadcastInDim S6500000x1 ![0] bcast_S6500000_S6500000x1_0 (norm (F := F) ei))))

/-- The same at width 8. -/
def agg8 (hw : FVec F S100000x8 .f32) (ei : IVec S2x6400000 32) : FVec F S100000x8 .f32 :=
  Host.scatterAdd scatter_S100000x8_S6500000x1_S6500000x8_1_0_0_1 (broadcastInDim S100000x8 ![] bcast_S_S100000x8 (constant S_ .f32 0x00000000#32)) (dstIdx ei)
    (mulf (Host.gather gather_S100000x8_S6500000x1_S6500000x8_1_0_n_n_0_1_18 hw (srcIdx ei)) (broadcastInDim S6500000x8 ![0, 1] bcast_S6500000x1_S6500000x8_0_1 (broadcastInDim S6500000x1 ![0] bcast_S6500000_S6500000x1_0 (norm (F := F) ei))))

/-- The first layer's output: the sum, the bias, the maximum with zero. -/
def hidden (x : FVec F S100000x128 .f32) (ei : IVec S2x6400000 32) (w1 : FVec F S128x16 .f32) (b1 : FVec F S16 .f32) :
    FVec F S100000x16 .f32 :=
  maximumf (addf (agg16 (Host.dotGeneral dot_S100000x128_S128x16_S100000x16_1_0_0_1_n_n none x w1) ei) (broadcastInDim S100000x16 ![0, 1] bcast_S1x16_S100000x16_0_1 (broadcastInDim S1x16 ![1] bcast_S16_S1x16_1 b1))) (broadcastInDim S100000x16 ![] bcast_S_S100000x16 (constant S_ .f32 0x00000000#32))

/-- THE REFERENCE PROGRAM'S RESULT as a function of the six argument arrays. -/
def out (x : FVec F S100000x128 .f32) (ei : IVec S2x6400000 32) (w1 : FVec F S128x16 .f32) (b1 : FVec F S16 .f32)
    (w2 : FVec F S16x8 .f32) (b2 : FVec F S8 .f32) : FVec F S100000x8 .f32 :=
  addf (agg8 (Host.dotGeneral dot_S100000x16_S16x8_S100000x8_1_0_0_1_n_n none (hidden x ei w1 b1) w2) ei) (broadcastInDim S100000x8 ![0, 1] bcast_S1x8_S100000x8_0_1 (broadcastInDim S1x8 ![1] bcast_S8_S1x8_1 b2))

end Cert.ReferenceIdeal.Term

end
-- ==== Proof.Region0.lean ====
import proofs.«151925_j69157563400469_1_alg».proof.Proof.Gen.KernelIdeal.Frame
import proofs.«151925_j69157563400469_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block access. -/
theorem hz : (![0, 0] : Fin 2 → Nat) = fun _ => 0 := funext fun a => by
  match a with | ⟨0, _⟩ => rfl | ⟨1, _⟩ => rfl

/-! ## The operand indices of the product, axis by axis -/

theorem lhs_0 (j : S5000x16.Idx) (k : dot_S5000x128_S128x16_S5000x16_1_0_0_1_n_n.contr.Idx) :
    (dot_S5000x128_S128x16_S5000x16_1_0_0_1_n_n.lhsIdx j k 0 : ℕ) = j 0 := by
  simp [DotDims.lhsIdx, dot_S5000x128_S128x16_S5000x16_1_0_0_1_n_n]; rfl
theorem lhs_1 (j : S5000x16.Idx) (k : dot_S5000x128_S128x16_S5000x16_1_0_0_1_n_n.contr.Idx) :
    (dot_S5000x128_S128x16_S5000x16_1_0_0_1_n_n.lhsIdx j k 1 : ℕ) = k ⟨0, by decide⟩ := by
  simp [DotDims.lhsIdx, dot_S5000x128_S128x16_S5000x16_1_0_0_1_n_n]; rfl
theorem rhs_0 (j : S5000x16.Idx) (k : dot_S5000x128_S128x16_S5000x16_1_0_0_1_n_n.contr.Idx) :
    (dot_S5000x128_S128x16_S5000x16_1_0_0_1_n_n.rhsIdx j k 0 : ℕ) = k ⟨0, by decide⟩ := by
  simp [DotDims.rhsIdx, dot_S5000x128_S128x16_S5000x16_1_0_0_1_n_n]; rfl
theorem rhs_1 (j : S5000x16.Idx) (k : dot_S5000x128_S128x16_S5000x16_1_0_0_1_n_n.contr.Idx) :
    (dot_S5000x128_S128x16_S5000x16_1_0_0_1_n_n.rhsIdx j k 1 : ℕ) = j 1 := by
  simp [DotDims.rhsIdx, dot_S5000x128_S128x16_S5000x16_1_0_0_1_n_n]; rfl

set_option maxHeartbeats 400000 in
/-- The body's payload at an index: the row of the first block times the column of the second. -/
theorem pay_apply (x0 : Vec Ideal S5000x128 .f32) (x1 : Vec Ideal S128x16 .f32) (p : Fin 5000) (q : Fin 16) :
    k0_pay1 x0 x1 (ix2 p q) = ∑ k : Fin 128, x0 (ix2 p k) * x1 (ix2 k q) := by
  unfold k0_pay1
  simp only [matmul]
  rw [Ideal.matmul_constant_zero_apply]
  rw [← Equiv.sum_comp (contrEquiv1 dot_S5000x128_S128x16_S5000x16_1_0_0_1_n_n 128 rfl rfl).symm]
  refine Finset.sum_congr rfl fun k _ => ?_
  simp only [truncf_apply]
  refine congrArg₂ (· * ·) (congrArg x0 ?_) (congrArg x1 ?_)
  · funext a; apply Fin.ext
    match a with
    | ⟨0, _⟩ => exact lhs_0 _ _
    | ⟨1, _⟩ => exact (lhs_1 _ _).trans (contrEquiv1_symm_val dot_S5000x128_S128x16_S5000x16_1_0_0_1_n_n 128 rfl rfl k)
  · funext a; apply Fin.ext
    match a with
    | ⟨0, _⟩ => exact (rhs_0 _ _).trans (contrEquiv1_symm_val dot_S5000x128_S128x16_S5000x16_1_0_0_1_n_n 128 rfl rfl k)
    | ⟨1, _⟩ => exact rhs_1 _ _

/-! ## From blocks to the array -/

/-- The windows' index maps over the grid: the first operand's and the result's row blocks move together with the
    point, every column block index is zero, and the second operand's one block stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 400000 in
/-- What point `t` writes back is block `t` of the product of the two arrays. -/
theorem flushed_eq (c : Dev nD) (t : Fin cfg0.N) :
    (dat0 (F := Ideal) V c).flushed 2 t
      = ((cfg0.win 2).blk t).view.read (Elt Ideal) (Cert.Gcn.lin (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x16) hz]
  obtain ⟨e0, e1, e2, e3, e4, e5⟩ := idx_facts t
  funext j
  show k0_pay1 (iblk0 V c 0 t) (iblk0 V c 1 t) j
    = Cert.Gcn.lin (V c main_arg0) (V c main_arg2) (((cfg0.win 2).blk t).view.emb j)
  obtain ⟨p, q, rfl⟩ : ∃ (p : Fin 5000) (q : Fin 16), j = ix2 p q := ⟨j 0, j 1, eq_ix2 (n0 := 5000) (n1 := 16) j⟩
  rw [pay_apply]
  unfold Cert.Gcn.lin
  refine Finset.sum_congr rfl fun k _ => ?_
  have h0 : (iblk0 V c 0 t : Vec Ideal S5000x128 .f32) (ix2 p k)
      = (V c main_arg0 : S100000x128.Idx → EReal) (ix2 (((cfg0.win 2).blk t).view.emb (ix2 p q) 0) k) := by
    show V c main_arg0 (((cfg0.win 0).blk t).view.emb (ix2 p k)) = _
    refine congrArg (V c main_arg0) ?_
    funext a; apply Fin.ext
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 128 + 1 * k.val = k.val
      omega
  have h1 : (iblk0 V c 1 t : Vec Ideal S128x16 .f32) (ix2 k q)
      = (V c main_arg2 : S128x16.Idx → EReal) (ix2 k (((cfg0.win 2).blk t).view.emb (ix2 p q) 1)) := by
    show V c main_arg2 (((cfg0.win 1).blk t).view.emb (ix2 k q)) = _
    refine congrArg (V c main_arg2) ?_
    funext a; apply Fin.ext
    match a with
    | ⟨0, _⟩ =>
      show win0_1.index t (0 : Fin 2) * 128 + 1 * k.val = k.val
      omega
    | ⟨1, _⟩ =>
      show win0_1.index t (1 : Fin 2) * 16 + 1 * q.val = win0_2.index t (1 : Fin 2) * 16 + 1 * q.val
      omega
  rw [h0, h1]

/-- An index of the array is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v34).slice (win0_2.rect t)).set ↔ _
  rw [View.set_slice_whole, Rect.mem_set_unit]
  exact Iff.rfl

/-- Every index of the array lies in the block of the point that holds its row. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  have ht : (i 0).val / 5000 < cfg0.N := by rw [hN]; omega
  obtain ⟨e0, e1, e2, e3, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 16 ≤ (i 1).val
      ∧ (i 1).val < win0_2.index ⟨(i 0).val / 5000, ht⟩ (1 : Fin 2) * 16 + 16
    omega

/-- Region 0's output array after the region: the matrix product of the two arrays the region is entered with. -/
theorem final (c : Dev nD) :
    (dat0 (F := Ideal) V c).arrAt 2 cfg0.N = Cert.Gcn.lin (V c main_arg0) (V c main_arg2) := by
  exact (dat0 (F := Ideal) V c).arrAt_eq_of_cover 2 _ (fun t _ => flushed_eq V c t) cover

end Cert.KernelIdeal.Region0

end
-- ==== Proof.Region1.lean ====
import proofs.«151925_j69157563400469_1_alg».proof.Proof.Gen.KernelIdeal.Frame
import proofs.«151925_j69157563400469_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-buffer access, as the constant function. -/
theorem zero_offset : (![0, 0] : Fin 2 → Nat) = fun _ => 0 := funext fun a => by fin_cases a <;> rfl

/-- The three index maps over the grid: point `t` names row block `t` and column block `0` of every window. -/
theorem index_at : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0 :=
  (by decide +kernel : ∀ t : Fin grid1.N, _)

/-- The body's arithmetic at entry `(p, q)` of a block: the feature entry times the one weight of row `p`
    (the weight column spread along the row, then the entrywise product). -/
theorem scaled_entry (x0 : Vec Ideal S8192x16 .f32) (x1 : Vec Ideal S8192x1 .f32) (p : Fin 8192) (q : Fin 16) :
    k1_pay1 x0 x1 (ix2 p q) = x0 (ix2 p q) * x1 (ix2 p (0 : Fin 1)) := by
  unfold k1_pay1
  rw [mulf_apply, shapeCast_self, shapeCast_self]
  refine congrArg (x0 (ix2 p q) * ·) (broadcastTo_apply _ _ _ _ fun a => ?_)
  match a with
  | ⟨0, _⟩ => rfl
  | ⟨1, _⟩ => rfl

/-- The feature window's block at point `t` is rows `8192 t … 8192 t + 8191` of the feature array. -/
theorem feature_block (c : Dev nD) (t : Fin cfg1.N) (y : S8192x16.Idx) (k : S6504448x16.Idx)
    (hk0 : (k 0).val = 8192 * t.val + (y 0).val) (hk1 : (k 1).val = (y 1).val) :
    (iblk1 V c 0 t : Vec Ideal S8192x16 .f32) y = (V c main_v41 : S6504448x16.Idx → EReal) k := by
  obtain ⟨e0, e1, -, -, -, -⟩ := index_at t
  unfold iblk1
  rw [View.read_apply]
  show V c main_v41 _ = V c main_v41 _
  congr 1
  funext a
  apply Fin.ext
  match a with
  | ⟨0, _⟩ => show win1_0.index t 0 * 8192 + 1 * (y 0).val = (k 0).val; rw [e0, hk0]; omega
  | ⟨1, _⟩ => show win1_0.index t 1 * 16 + 1 * (y 1).val = (k 1).val; rw [e1, hk1]; omega

/-- The weight window's block at point `t` is rows `8192 t … 8192 t + 8191` of the weight column. -/
theorem weight_block (c : Dev nD) (t : Fin cfg1.N) (y : S8192x1.Idx) (k : S6504448x1.Idx)
    (hk0 : (k 0).val = 8192 * t.val + (y 0).val) :
    (iblk1 V c 1 t : Vec Ideal S8192x1 .f32) y = (V c main_v33 : S6504448x1.Idx → EReal) k := by
  obtain ⟨-, -, e2, e3, -, -⟩ := index_at t
  unfold iblk1
  rw [View.read_apply]
  show V c main_v33 _ = V c main_v33 _
  congr 1
  funext a
  apply Fin.ext
  match a with
  | ⟨0, _⟩ => show win1_1.index t 0 * 8192 + 1 * (y 0).val = (k 0).val; rw [e2, hk0]; omega
  | ⟨1, _⟩ =>
    show win1_1.index t 1 * 1 + 1 * (y 1).val = (k 1).val
    have h1 : (y 1).val < 1 := (y 1).isLt
    have h2 : (k 1).val < 1 := (k 1).isLt
    rw [e3]; omega

/-- What point `t` writes back is block `t` of the scaled rows of the two arrays as the region finds them. -/
theorem flushed_eq (c : Dev nD) (t : Fin cfg1.N) :
    (dat1 (F := Ideal) V c).flushed 2 t
      = ((cfg1.win 2).blk t).view.read (Elt Ideal) (Cert.Gcn.scaleRows (V c main_v41) (V c main_v33)) := by
  show (cfg1.win 2).cut (grid1.coords t) ((dat1 V c).after 2 t) = _
  rw [after1_2]
  unfold out1_2
  rw [View.canon_unit_zero zero_offset]
  simp only [View.ld_unit_zero (S := S8192x16) zero_offset, View.ld_unit_zero (S := S8192x1) zero_offset]
  obtain ⟨-, -, -, -, e4, e5⟩ := index_at t
  funext j
  revert j
  show ∀ j : S8192x16.Idx, k1_pay1 (iblk1 V c 0 t) (iblk1 V c 1 t) j
    = Cert.Gcn.scaleRows (V c main_v41) (V c main_v33) (((cfg1.win 2).blk t).view.emb j)
  intro j
  obtain ⟨p, q, rfl⟩ : ∃ (p : Fin 8192) (q : Fin 16), j = ix2 p q := ⟨j 0, j 1, eq_ix2 j⟩
  refine (scaled_entry _ _ p q).trans ?_
  unfold Cert.Gcn.scaleRows
  refine congrArg₂ (· * ·) (feature_block V c t _ _ ?_ ?_) (weight_block V c t _ _ ?_)
  · show win1_2.index t 0 * 8192 + 1 * p.val = 8192 * t.val + p.val
    rw [e4]; omega
  · show win1_2.index t 1 * 16 + 1 * q.val = q.val
    rw [e5]; omega
  · show win1_2.index t 0 * 8192 + 1 * p.val = 8192 * t.val + p.val
    rw [e4]; omega

/-- An index of the output array is in point `t`'s block iff each coordinate is in the block's range on its axis. -/
theorem mem_blk (t : Fin cfg1.N) (i : S6504448x16.Idx) :
    i ∈ ((cfg1.win 2).blk t).view.set ↔
      ∀ a : Fin 2, win1_2.index t a * S8192x16.size a ≤ (i a).val
        ∧ (i a).val < win1_2.index t a * S8192x16.size a + S8192x16.size a := by
  show i ∈ ((View.whole main_v42).slice (win1_2.rect t)).set ↔ _
  rw [View.set_slice_whole, Rect.mem_set_unit]
  exact Iff.rfl

/-- The 794 row blocks of 8192 rows tile the 6504448 rows: row `r` lies in the block of point `r / 8192`. -/
theorem cover (i : S6504448x16.Idx) :
    ∃ t : Fin cfg1.N, (cfg1.win 2).flush t = true ∧ i ∈ ((cfg1.win 2).blk t).view.set := by
  have hi0 : (i 0).val < 6504448 := (i 0).isLt
  have hi1 : (i 1).val < 16 := (i 1).isLt
  have hN : cfg1.N = 794 := N_1
  have ht : (i 0).val / 8192 < cfg1.N := by rw [hN]; omega
  obtain ⟨-, -, -, -, e4, e5⟩ := index_at ⟨(i 0).val / 8192, ht⟩
  refine ⟨⟨(i 0).val / 8192, ht⟩, flush1_2 _, ?_⟩
  rw [mem_blk]
  intro a
  match a with
  | ⟨0, _⟩ =>
    show win1_2.index ⟨(i 0).val / 8192, ht⟩ 0 * 8192 ≤ (i 0).val
      ∧ (i 0).val < win1_2.index ⟨(i 0).val / 8192, ht⟩ 0 * 8192 + 8192
    rw [e4]
    show (i 0).val / 8192 * 8192 ≤ (i 0).val ∧ (i 0).val < (i 0).val / 8192 * 8192 + 8192
    omega
  | ⟨1, _⟩ =>
    show win1_2.index ⟨(i 0).val / 8192, ht⟩ 1 * 16 ≤ (i 1).val
      ∧ (i 1).val < win1_2.index ⟨(i 0).val / 8192, ht⟩ 1 * 16 + 16
    rw [e5]
    omega

/-- Region 1's output array after the region: each row of the gathered features scaled by that row's one weight. -/
theorem final (c : Dev nD) :
    (dat1 (F := Ideal) V c).arrAt 2 cfg1.N = Cert.Gcn.scaleRows (V c main_v41) (V c main_v33) :=
  (dat1 V c).arrAt_eq_of_cover 2 _ (fun t _ => flushed_eq V c t) cover

end Cert.KernelIdeal.Region1

end
-- ==== Proof.Region2.lean ====
import proofs.«151925_j69157563400469_1_alg».proof.Proof.Gen.KernelIdeal.Frame
import proofs.«151925_j69157563400469_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-buffer access. -/
theorem hz : (![0, 0] : Fin 2 → Nat) = fun _ => 0 :=
  funext fun a => by match a with | ⟨0, _⟩ => rfl | ⟨1, _⟩ => rfl

/-- The printed index maps over the grid: the row blocks of the input and of the output move together, one block per
    point; the bias row's block never moves. -/
theorem idx_facts : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The bias row spread down the rows, read at an index, is the row's entry of that column. -/
theorem row_apply (x1 : Vec Ideal S1x16 .f32) (p : Fin 5000) (q : Fin 16) :
    broadcastTo S5000x16 x1 broadcasts_S1x16_S5000x16 (ix2 p q) = x1 (ix2 (0 : Fin 1) q) := by
  refine broadcastTo_apply x1 _ (ix2 p q) (ix2 (0 : Fin 1) q) fun a => ?_
  match a with
  | ⟨0, _⟩ => rfl
  | ⟨1, _⟩ => rfl

/-- The body's arithmetic at an index: the block's entry plus the bias row's entry of the same column, then the maximum
    with zero. -/
theorem pay_apply (x0 : Vec Ideal S5000x16 .f32) (x1 : Vec Ideal S1x16 .f32) (p : Fin 5000) (q : Fin 16) :
    k2_pay1 x0 x1 (ix2 p q) = max (x0 (ix2 p q) + x1 (ix2 (0 : Fin 1) q)) 0 := by
  unfold k2_pay1
  rw [maximumf_apply, addf_apply, broadcast_apply, shapeCast_self, shapeCast_self, row_apply]
  show max _ (Ideal.ofBits .f32 0x00000000#32) = _
  rw [Ideal.ofBits_zero_f32]

/-- The body's result at an index of the block. -/
theorem out_apply (x0 : Vec Ideal S5000x16 .f32) (x1 : Vec Ideal S1x16 .f32) (j : S5000x16.Idx) :
    out2_2 x0 x1 j = max (x0 j + x1 (ix2 (0 : Fin 1) (j 1))) 0 := by
  unfold out2_2
  rw [View.canon_unit_zero hz]
  simp only [View.ld_unit_zero (S := S5000x16) hz, View.ld_unit_zero (S := S1x16) hz]
  obtain ⟨p, q, rfl⟩ : ∃ (p : Fin 5000) (q : Fin 16), j = ix2 p q := ⟨j 0, j 1, eq_ix2 j⟩
  exact pay_apply x0 x1 p q

/-- One entry: the sum read at equal indices, then the maximum with zero, is the whole-array function's entry. -/
theorem point_eq (A : S100000x16.Idx → EReal) (B : S1x16.Idx → EReal) (i0 i2 : S100000x16.Idx) (k : S1x16.Idx)
    (h0 : i0 = i2) (h1 : k = ix2 (0 : Fin 1) (i2 1)) :
    max (A i0 + B k) 0 = Cert.Gcn.reluAddRow A B i2 := by
  subst h0 h1; rfl

/-- What point `t` writes back is its block of the bias-add-and-maximum of the two arrays as the region finds them. -/
theorem flushed_eq (c : Dev nD) (t : Fin cfg2.N) :
    (dat2 (F := Ideal) V c).flushed 2 t
      = ((cfg2.win 2).blk t).view.read (Elt Ideal) (Cert.Gcn.reluAddRow (V c main_v45) (V c main_v46)) := by
  show (cfg2.win 2).cut (grid2.coords t) ((dat2 V c).after 2 t) = _
  rw [after2_2]
  obtain ⟨e0, e1, e2, e3, e4, e5⟩ := idx_facts t
  funext j
  show out2_2 (iblk2 V c 0 t) (iblk2 V c 1 t) j = _
  rw [out_apply]
  refine point_eq (V c main_v45) (V c main_v46) (((cfg2.win 0).blk t).view.emb j) (((cfg2.win 2).blk t).view.emb j)
    (((cfg2.win 1).blk t).view.emb (ix2 (0 : Fin 1) ((j : S5000x16.Idx) 1))) ?_ ?_
  · funext a; apply Fin.ext
    match a with
    | ⟨0, _⟩ =>
      show win2_0.index t (0 : Fin 2) * 5000 + 1 * ((j : S5000x16.Idx) 0).val
        = win2_2.index t (0 : Fin 2) * 5000 + 1 * ((j : S5000x16.Idx) 0).val
      omega
    | ⟨1, _⟩ =>
      show win2_0.index t (1 : Fin 2) * 16 + 1 * ((j : S5000x16.Idx) 1).val
        = win2_2.index t (1 : Fin 2) * 16 + 1 * ((j : S5000x16.Idx) 1).val
      omega
  · funext a; apply Fin.ext
    match a with
    | ⟨0, _⟩ =>
      show win2_1.index t (0 : Fin 2) * 1 + 1 * 0 = 0
      omega
    | ⟨1, _⟩ =>
      show win2_1.index t (1 : Fin 2) * 16 + 1 * ((j : S5000x16.Idx) 1).val
        = win2_2.index t (1 : Fin 2) * 16 + 1 * ((j : S5000x16.Idx) 1).val
      omega

/-- An index of the array is in point `t`'s block iff each coordinate is in the block's range on its axis. -/
theorem mem_blk (t : Fin cfg2.N) (i : S100000x16.Idx) :
    i ∈ ((cfg2.win 2).blk t).view.set ↔ ∀ a : Fin 2, win2_2.index t a * S5000x16.size a ≤ (i a).val
      ∧ (i a).val < win2_2.index t a * S5000x16.size a + S5000x16.size a := by
  show i ∈ ((View.whole main_v47).slice (win2_2.rect t)).set ↔ _
  rw [View.set_slice_whole, Rect.mem_set_unit]
  exact Iff.rfl

/-- The blocks cover the array: row `r` lies in the block of point `r / 5000`. -/
theorem cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hlt : (i 0).val / 5000 < cfg2.N := by
    show _ < grid2.N
    rw [N_2]; omega
  obtain ⟨t, ht⟩ : ∃ t : Fin cfg2.N, t.val = (i 0).val / 5000 := ⟨⟨_, hlt⟩, rfl⟩
  obtain ⟨-, -, -, -, e4, e5⟩ := idx_facts t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 16 ≤ (i 1).val ∧ (i 1).val < win2_2.index t (1 : Fin 2) * 16 + 16
    omega

/-- Region 2's output array after the region: the bias row added to every row, then the maximum with zero. -/
theorem final (c : Dev nD) :
    (dat2 (F := Ideal) V c).arrAt 2 cfg2.N = Cert.Gcn.reluAddRow (V c main_v45) (V c main_v46) :=
  (dat2 (F := Ideal) V c).arrAt_eq_of_cover 2 _ (fun t _ => flushed_eq V c t) cover

end Cert.KernelIdeal.Region2

end
-- ==== Proof.Region3.lean ====
import proofs.«151925_j69157563400469_1_alg».proof.Proof.Gen.KernelIdeal.Frame
import proofs.«151925_j69157563400469_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block access. -/
theorem hz : (![0, 0] : Fin 2 → Nat) = fun _ => 0 := funext fun a => by
  match a with | ⟨0, _⟩ => rfl | ⟨1, _⟩ => rfl

/-! ## The operand indices of the product, axis by axis -/

theorem lhs_0 (j : S5000x8.Idx) (k : dot_S5000x16_S16x8_S5000x8_1_0_0_1_n_n.contr.Idx) :
    (dot_S5000x16_S16x8_S5000x8_1_0_0_1_n_n.lhsIdx j k 0 : ℕ) = j 0 := by
  simp [DotDims.lhsIdx, dot_S5000x16_S16x8_S5000x8_1_0_0_1_n_n]; rfl
theorem lhs_1 (j : S5000x8.Idx) (k : dot_S5000x16_S16x8_S5000x8_1_0_0_1_n_n.contr.Idx) :
    (dot_S5000x16_S16x8_S5000x8_1_0_0_1_n_n.lhsIdx j k 1 : ℕ) = k ⟨0, by decide⟩ := by
  simp [DotDims.lhsIdx, dot_S5000x16_S16x8_S5000x8_1_0_0_1_n_n]; rfl
theorem rhs_0 (j : S5000x8.Idx) (k : dot_S5000x16_S16x8_S5000x8_1_0_0_1_n_n.contr.Idx) :
    (dot_S5000x16_S16x8_S5000x8_1_0_0_1_n_n.rhsIdx j k 0 : ℕ) = k ⟨0, by decide⟩ := by
  simp [DotDims.rhsIdx, dot_S5000x16_S16x8_S5000x8_1_0_0_1_n_n]; rfl
theorem rhs_1 (j : S5000x8.Idx) (k : dot_S5000x16_S16x8_S5000x8_1_0_0_1_n_n.contr.Idx) :
    (dot_S5000x16_S16x8_S5000x8_1_0_0_1_n_n.rhsIdx j k 1 : ℕ) = j 1 := by
  simp [DotDims.rhsIdx, dot_S5000x16_S16x8_S5000x8_1_0_0_1_n_n]; rfl

set_option maxHeartbeats 400000 in
/-- The body's payload at an index: the row of the first block times the column of the second. -/
theorem pay_apply (x0 : Vec Ideal S5000x16 .f32) (x1 : Vec Ideal S16x8 .f32) (p : Fin 5000) (q : Fin 8) :
    k3_pay1 x0 x1 (ix2 p q) = ∑ k : Fin 16, x0 (ix2 p k) * x1 (ix2 k q) := by
  unfold k3_pay1
  simp only [matmul, shapeCast_self]
  rw [Ideal.matmul_constant_zero_apply]
  rw [← Equiv.sum_comp (contrEquiv1 dot_S5000x16_S16x8_S5000x8_1_0_0_1_n_n 16 rfl rfl).symm]
  refine Finset.sum_congr rfl fun k _ => ?_
  simp only [truncf_apply]
  refine congrArg₂ (· * ·) (congrArg x0 ?_) (congrArg x1 ?_)
  · funext a; apply Fin.ext
    match a with
    | ⟨0, _⟩ => exact lhs_0 _ _
    | ⟨1, _⟩ => exact (lhs_1 _ _).trans (contrEquiv1_symm_val dot_S5000x16_S16x8_S5000x8_1_0_0_1_n_n 16 rfl rfl k)
  · funext a; apply Fin.ext
    match a with
    | ⟨0, _⟩ => exact (rhs_0 _ _).trans (contrEquiv1_symm_val dot_S5000x16_S16x8_S5000x8_1_0_0_1_n_n 16 rfl rfl k)
    | ⟨1, _⟩ => exact rhs_1 _ _

/-! ## From blocks to the array -/

/-- The windows' index maps over the grid: the first operand's and the result's row blocks move together with the
    point, every column block index is zero, and the second operand's one block stays. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 400000 in
/-- What point `t` writes back is block `t` of the product of the two arrays. -/
theorem flushed_eq (c : Dev nD) (t : Fin cfg3.N) :
    (dat3 (F := Ideal) V c).flushed 2 t
      = ((cfg3.win 2).blk t).view.read (Elt Ideal) (Cert.Gcn.lin (V c main_v47) (V c main_arg4)) := by
  show (cfg3.win 2).cut (grid3.coords t) ((dat3 V c).after 2 t) = _
  rw [after3_2]
  unfold out3_2
  rw [View.canon_unit_zero hz]
  simp only [View.ld_unit_zero (S := S5000x16) hz, View.ld_unit_zero (S := S16x8) hz]
  obtain ⟨e0, e1, e2, e3, e4, e5⟩ := idx_facts t
  funext j
  show k3_pay1 (iblk3 V c 0 t) (iblk3 V c 1 t) j
    = Cert.Gcn.lin (V c main_v47) (V c main_arg4) (((cfg3.win 2).blk t).view.emb j)
  obtain ⟨p, q, rfl⟩ : ∃ (p : Fin 5000) (q : Fin 8), j = ix2 p q := ⟨j 0, j 1, eq_ix2 (n0 := 5000) (n1 := 8) j⟩
  rw [pay_apply]
  unfold Cert.Gcn.lin
  refine Finset.sum_congr rfl fun k _ => ?_
  have h0 : (iblk3 V c 0 t : Vec Ideal S5000x16 .f32) (ix2 p k)
      = (V c main_v47 : S100000x16.Idx → EReal) (ix2 (((cfg3.win 2).blk t).view.emb (ix2 p q) 0) k) := by
    show V c main_v47 (((cfg3.win 0).blk t).view.emb (ix2 p k)) = _
    refine congrArg (V c main_v47) ?_
    funext a; apply Fin.ext
    match a with
    | ⟨0, _⟩ =>
      show win3_0.index t (0 : Fin 2) * 5000 + 1 * p.val = win3_2.index t (0 : Fin 2) * 5000 + 1 * p.val
      omega
    | ⟨1, _⟩ =>
      show win3_0.index t (1 : Fin 2) * 16 + 1 * k.val = k.val
      omega
  have h1 : (iblk3 V c 1 t : Vec Ideal S16x8 .f32) (ix2 k q)
      = (V c main_arg4 : S16x8.Idx → EReal) (ix2 k (((cfg3.win 2).blk t).view.emb (ix2 p q) 1)) := by
    show V c main_arg4 (((cfg3.win 1).blk t).view.emb (ix2 k q)) = _
    refine congrArg (V c main_arg4) ?_
    funext a; apply Fin.ext
    match a with
    | ⟨0, _⟩ =>
      show win3_1.index t (0 : Fin 2) * 16 + 1 * k.val = k.val
      omega
    | ⟨1, _⟩ =>
      show win3_1.index t (1 : Fin 2) * 8 + 1 * q.val = win3_2.index t (1 : Fin 2) * 8 + 1 * q.val
      omega
  rw [h0, h1]

/-- An index of the array is in point `t`'s block iff each coordinate is in the block's range on its axis. -/
theorem mem_blk (t : Fin cfg3.N) (i : S100000x8.Idx) :
    i ∈ ((cfg3.win 2).blk t).view.set ↔ ∀ a : Fin 2, win3_2.index t a * S5000x8.size a ≤ (i a).val
      ∧ (i a).val < win3_2.index t a * S5000x8.size a + S5000x8.size a := by
  show i ∈ ((View.whole main_v48).slice (win3_2.rect t)).set ↔ _
  rw [View.set_slice_whole, Rect.mem_set_unit]
  exact Iff.rfl

/-- Every index of the array lies in the block of the point that holds its row. -/
theorem cover (i : S100000x8.Idx) :
    ∃ t : Fin cfg3.N, (cfg3.win 2).flush t = true ∧ i ∈ ((cfg3.win 2).blk t).view.set := by
  have hi0 : (i 0).val < 100000 := (i 0).isLt
  have hi1 : (i 1).val < 8 := (i 1).isLt
  have hN : cfg3.N = 20 := N_3
  have ht : (i 0).val / 5000 < cfg3.N := by rw [hN]; omega
  obtain ⟨e0, e1, e2, e3, e4, e5⟩ := idx_facts ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, ht⟩ (1 : Fin 2) * 8 ≤ (i 1).val
      ∧ (i 1).val < win3_2.index ⟨(i 0).val / 5000, ht⟩ (1 : Fin 2) * 8 + 8
    omega

/-- Region 3's output array after the region: the matrix product of the two arrays the region is entered with. -/
theorem final (c : Dev nD) :
    (dat3 (F := Ideal) V c).arrAt 2 cfg3.N = Cert.Gcn.lin (V c main_v47) (V c main_arg4) := by
  exact (dat3 (F := Ideal) V c).arrAt_eq_of_cover 2 _ (fun t _ => flushed_eq V c t) cover

end Cert.KernelIdeal.Region3

end
-- ==== Proof.Region4.lean ====
import proofs.«151925_j69157563400469_1_alg».proof.Proof.Gen.KernelIdeal.Frame
import proofs.«151925_j69157563400469_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-buffer access, as the constant function. -/
theorem zero_offset : (![0, 0] : Fin 2 → Nat) = fun _ => 0 := funext fun a => by fin_cases a <;> rfl

/-- The three index maps over the grid: point `t` names row block `t` and column block `0` of every window. -/
theorem index_at : ∀ t : Fin cfg4.N,
    win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0 :=
  (by decide +kernel : ∀ t : Fin grid4.N, _)

/-- The body's arithmetic at entry `(p, q)` of a block: the feature entry times the one weight of row `p`
    (the weight column spread along the row, then the entrywise product). -/
theorem scaled_entry (x0 : Vec Ideal S8192x8 .f32) (x1 : Vec Ideal S8192x1 .f32) (p : Fin 8192) (q : Fin 8) :
    k4_pay1 x0 x1 (ix2 p q) = x0 (ix2 p q) * x1 (ix2 p (0 : Fin 1)) := by
  unfold k4_pay1
  rw [mulf_apply, shapeCast_self, shapeCast_self]
  refine congrArg (x0 (ix2 p q) * ·) (broadcastTo_apply _ _ _ _ fun a => ?_)
  match a with
  | ⟨0, _⟩ => rfl
  | ⟨1, _⟩ => rfl

/-- The feature window's block at point `t` is rows `8192 t … 8192 t + 8191` of the feature array. -/
theorem feature_block (c : Dev nD) (t : Fin cfg4.N) (y : S8192x8.Idx) (k : S6504448x8.Idx)
    (hk0 : (k 0).val = 8192 * t.val + (y 0).val) (hk1 : (k 1).val = (y 1).val) :
    (iblk4 V c 0 t : Vec Ideal S8192x8 .f32) y = (V c main_v55 : S6504448x8.Idx → EReal) k := by
  obtain ⟨e0, e1, -, -, -, -⟩ := index_at t
  unfold iblk4
  rw [View.read_apply]
  show V c main_v55 _ = V c main_v55 _
  congr 1
  funext a
  apply Fin.ext
  match a with
  | ⟨0, _⟩ => show win4_0.index t 0 * 8192 + 1 * (y 0).val = (k 0).val; rw [e0, hk0]; omega
  | ⟨1, _⟩ => show win4_0.index t 1 * 8 + 1 * (y 1).val = (k 1).val; rw [e1, hk1]; omega

/-- The weight window's block at point `t` is rows `8192 t … 8192 t + 8191` of the weight column. -/
theorem weight_block (c : Dev nD) (t : Fin cfg4.N) (y : S8192x1.Idx) (k : S6504448x1.Idx)
    (hk0 : (k 0).val = 8192 * t.val + (y 0).val) :
    (iblk4 V c 1 t : Vec Ideal S8192x1 .f32) y = (V c main_v33 : S6504448x1.Idx → EReal) k := by
  obtain ⟨-, -, e2, e3, -, -⟩ := index_at t
  unfold iblk4
  rw [View.read_apply]
  show V c main_v33 _ = V c main_v33 _
  congr 1
  funext a
  apply Fin.ext
  match a with
  | ⟨0, _⟩ => show win4_1.index t 0 * 8192 + 1 * (y 0).val = (k 0).val; rw [e2, hk0]; omega
  | ⟨1, _⟩ =>
    show win4_1.index t 1 * 1 + 1 * (y 1).val = (k 1).val
    have h1 : (y 1).val < 1 := (y 1).isLt
    have h2 : (k 1).val < 1 := (k 1).isLt
    rw [e3]; omega

/-- What point `t` writes back is block `t` of the scaled rows of the two arrays as the region finds them. -/
theorem flushed_eq (c : Dev nD) (t : Fin cfg4.N) :
    (dat4 (F := Ideal) V c).flushed 2 t
      = ((cfg4.win 2).blk t).view.read (Elt Ideal) (Cert.Gcn.scaleRows (V c main_v55) (V c main_v33)) := by
  show (cfg4.win 2).cut (grid4.coords t) ((dat4 V c).after 2 t) = _
  rw [after4_2]
  unfold out4_2
  rw [View.canon_unit_zero zero_offset]
  simp only [View.ld_unit_zero (S := S8192x8) zero_offset, View.ld_unit_zero (S := S8192x1) zero_offset]
  obtain ⟨-, -, -, -, e4, e5⟩ := index_at t
  funext j
  revert j
  show ∀ j : S8192x8.Idx, k4_pay1 (iblk4 V c 0 t) (iblk4 V c 1 t) j
    = Cert.Gcn.scaleRows (V c main_v55) (V c main_v33) (((cfg4.win 2).blk t).view.emb j)
  intro j
  obtain ⟨p, q, rfl⟩ : ∃ (p : Fin 8192) (q : Fin 8), j = ix2 p q := ⟨j 0, j 1, eq_ix2 j⟩
  refine (scaled_entry _ _ p q).trans ?_
  unfold Cert.Gcn.scaleRows
  refine congrArg₂ (· * ·) (feature_block V c t _ _ ?_ ?_) (weight_block V c t _ _ ?_)
  · show win4_2.index t 0 * 8192 + 1 * p.val = 8192 * t.val + p.val
    rw [e4]; omega
  · show win4_2.index t 1 * 8 + 1 * q.val = q.val
    rw [e5]; omega
  · show win4_2.index t 0 * 8192 + 1 * p.val = 8192 * t.val + p.val
    rw [e4]; omega

/-- An index of the output array is in point `t`'s block iff each coordinate is in the block's range on its axis. -/
theorem mem_blk (t : Fin cfg4.N) (i : S6504448x8.Idx) :
    i ∈ ((cfg4.win 2).blk t).view.set ↔
      ∀ a : Fin 2, win4_2.index t a * S8192x8.size a ≤ (i a).val
        ∧ (i a).val < win4_2.index t a * S8192x8.size a + S8192x8.size a := by
  show i ∈ ((View.whole main_v56).slice (win4_2.rect t)).set ↔ _
  rw [View.set_slice_whole, Rect.mem_set_unit]
  exact Iff.rfl

/-- The 794 row blocks of 8192 rows tile the 6504448 rows: row `r` lies in the block of point `r / 8192`. -/
theorem cover (i : S6504448x8.Idx) :
    ∃ t : Fin cfg4.N, (cfg4.win 2).flush t = true ∧ i ∈ ((cfg4.win 2).blk t).view.set := by
  have hi0 : (i 0).val < 6504448 := (i 0).isLt
  have hi1 : (i 1).val < 8 := (i 1).isLt
  have hN : cfg4.N = 794 := N_4
  have ht : (i 0).val / 8192 < cfg4.N := by rw [hN]; omega
  obtain ⟨-, -, -, -, e4, e5⟩ := index_at ⟨(i 0).val / 8192, ht⟩
  refine ⟨⟨(i 0).val / 8192, ht⟩, flush4_2 _, ?_⟩
  rw [mem_blk]
  intro a
  match a with
  | ⟨0, _⟩ =>
    show win4_2.index ⟨(i 0).val / 8192, ht⟩ 0 * 8192 ≤ (i 0).val
      ∧ (i 0).val < win4_2.index ⟨(i 0).val / 8192, ht⟩ 0 * 8192 + 8192
    rw [e4]
    show (i 0).val / 8192 * 8192 ≤ (i 0).val ∧ (i 0).val < (i 0).val / 8192 * 8192 + 8192
    omega
  | ⟨1, _⟩ =>
    show win4_2.index ⟨(i 0).val / 8192, ht⟩ 1 * 8 ≤ (i 1).val
      ∧ (i 1).val < win4_2.index ⟨(i 0).val / 8192, ht⟩ 1 * 8 + 8
    rw [e5]
    omega

/-- Region 4's output array after the region: each row of the gathered features scaled by that row's one weight. -/
theorem final (c : Dev nD) :
    (dat4 (F := Ideal) V c).arrAt 2 cfg4.N = Cert.Gcn.scaleRows (V c main_v55) (V c main_v33) :=
  (dat4 V c).arrAt_eq_of_cover 2 _ (fun t _ => flushed_eq V c t) cover

end Cert.KernelIdeal.Region4

end
-- ==== Proof.Region5.lean ====
import proofs.«151925_j69157563400469_1_alg».proof.Proof.Gen.KernelIdeal.Frame
import proofs.«151925_j69157563400469_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-buffer access. -/
theorem hz : (![0, 0] : Fin 2 → Nat) = fun _ => 0 :=
  funext fun a => by match a with | ⟨0, _⟩ => rfl | ⟨1, _⟩ => rfl

/-- The printed index maps over the grid: the row blocks of the input and of the output move together, one block per
    point; the bias row's block never moves. -/
theorem idx_facts : ∀ t : Fin cfg5.N,
    win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- The bias row spread down the rows, read at an index, is the row's entry of that column. -/
theorem row_apply (x1 : Vec Ideal S1x8 .f32) (p : Fin 5000) (q : Fin 8) :
    broadcastTo S5000x8 x1 broadcasts_S1x8_S5000x8 (ix2 p q) = x1 (ix2 (0 : Fin 1) q) := by
  refine broadcastTo_apply x1 _ (ix2 p q) (ix2 (0 : Fin 1) q) fun a => ?_
  match a with
  | ⟨0, _⟩ => rfl
  | ⟨1, _⟩ => rfl

/-- The body's arithmetic at an index: the block's entry plus the bias row's entry of the same column. -/
theorem pay_apply (x0 : Vec Ideal S5000x8 .f32) (x1 : Vec Ideal S1x8 .f32) (p : Fin 5000) (q : Fin 8) :
    k5_pay1 x0 x1 (ix2 p q) = x0 (ix2 p q) + x1 (ix2 (0 : Fin 1) q) := by
  unfold k5_pay1
  rw [addf_apply, shapeCast_self, shapeCast_self, row_apply]

/-- The body's result at an index of the block. -/
theorem out_apply (x0 : Vec Ideal S5000x8 .f32) (x1 : Vec Ideal S1x8 .f32) (j : S5000x8.Idx) :
    out5_2 x0 x1 j = x0 j + x1 (ix2 (0 : Fin 1) (j 1)) := by
  unfold out5_2
  rw [View.canon_unit_zero hz]
  simp only [View.ld_unit_zero (S := S5000x8) hz, View.ld_unit_zero (S := S1x8) hz]
  obtain ⟨p, q, rfl⟩ : ∃ (p : Fin 5000) (q : Fin 8), j = ix2 p q := ⟨j 0, j 1, eq_ix2 j⟩
  exact pay_apply x0 x1 p q

/-- One entry: the sum read at equal indices is the whole-array function's entry. -/
theorem point_eq (A : S100000x8.Idx → EReal) (B : S1x8.Idx → EReal) (i0 i2 : S100000x8.Idx) (k : S1x8.Idx)
    (h0 : i0 = i2) (h1 : k = ix2 (0 : Fin 1) (i2 1)) :
    A i0 + B k = Cert.Gcn.addRow A B i2 := by
  subst h0 h1; rfl

/-- What point `t` writes back is its block of the bias-add of the two arrays as the region finds them. -/
theorem flushed_eq (c : Dev nD) (t : Fin cfg5.N) :
    (dat5 (F := Ideal) V c).flushed 2 t
      = ((cfg5.win 2).blk t).view.read (Elt Ideal) (Cert.Gcn.addRow (V c main_v59) (V c main_v60)) := by
  show (cfg5.win 2).cut (grid5.coords t) ((dat5 V c).after 2 t) = _
  rw [after5_2]
  obtain ⟨e0, e1, e2, e3, e4, e5⟩ := idx_facts t
  funext j
  show out5_2 (iblk5 V c 0 t) (iblk5 V c 1 t) j = _
  rw [out_apply]
  refine point_eq (V c main_v59) (V c main_v60) (((cfg5.win 0).blk t).view.emb j) (((cfg5.win 2).blk t).view.emb j)
    (((cfg5.win 1).blk t).view.emb (ix2 (0 : Fin 1) ((j : S5000x8.Idx) 1))) ?_ ?_
  · funext a; apply Fin.ext
    match a with
    | ⟨0, _⟩ =>
      show win5_0.index t (0 : Fin 2) * 5000 + 1 * ((j : S5000x8.Idx) 0).val
        = win5_2.index t (0 : Fin 2) * 5000 + 1 * ((j : S5000x8.Idx) 0).val
      omega
    | ⟨1, _⟩ =>
      show win5_0.index t (1 : Fin 2) * 8 + 1 * ((j : S5000x8.Idx) 1).val
        = win5_2.index t (1 : Fin 2) * 8 + 1 * ((j : S5000x8.Idx) 1).val
      omega
  · funext a; apply Fin.ext
    match a with
    | ⟨0, _⟩ =>
      show win5_1.index t (0 : Fin 2) * 1 + 1 * 0 = 0
      omega
    | ⟨1, _⟩ =>
      show win5_1.index t (1 : Fin 2) * 8 + 1 * ((j : S5000x8.Idx) 1).val
        = win5_2.index t (1 : Fin 2) * 8 + 1 * ((j : S5000x8.Idx) 1).val
      omega

/-- An index of the array is in point `t`'s block iff each coordinate is in the block's range on its axis. -/
theorem mem_blk (t : Fin cfg5.N) (i : S100000x8.Idx) :
    i ∈ ((cfg5.win 2).blk t).view.set ↔ ∀ a : Fin 2, win5_2.index t a * S5000x8.size a ≤ (i a).val
      ∧ (i a).val < win5_2.index t a * S5000x8.size a + S5000x8.size a := by
  show i ∈ ((View.whole main_v61).slice (win5_2.rect t)).set ↔ _
  rw [View.set_slice_whole, Rect.mem_set_unit]
  exact Iff.rfl

/-- The blocks cover the array: row `r` lies in the block of point `r / 5000`. -/
theorem cover (i : S100000x8.Idx) :
    ∃ t : Fin cfg5.N, (cfg5.win 2).flush t = true ∧ i ∈ ((cfg5.win 2).blk t).view.set := by
  have hi0 : (i 0).val < 100000 := (i 0).isLt
  have hi1 : (i 1).val < 8 := (i 1).isLt
  have hlt : (i 0).val / 5000 < cfg5.N := by
    show _ < grid5.N
    rw [N_5]; omega
  obtain ⟨t, ht⟩ : ∃ t : Fin cfg5.N, t.val = (i 0).val / 5000 := ⟨⟨_, hlt⟩, rfl⟩
  obtain ⟨-, -, -, -, e4, e5⟩ := idx_facts t
  refine ⟨t, flush5_2 t, ?_⟩
  rw [mem_blk]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 8 ≤ (i 1).val ∧ (i 1).val < win5_2.index t (1 : Fin 2) * 8 + 8
    omega

/-- Region 5's output array after the region: the bias row added to every row. -/
theorem final (c : Dev nD) :
    (dat5 (F := Ideal) V c).arrAt 2 cfg5.N = Cert.Gcn.addRow (V c main_v59) (V c main_v60) :=
  (dat5 (F := Ideal) V c).arrAt_eq_of_cover 2 _ (fun t _ => flushed_eq V c t) cover

end Cert.KernelIdeal.Region5

end
-- ==== Proof.KernelValue.lean ====
/-
  The idealized kernel program's result array after its run IS the composed term `Term.out` of the six argument
  arrays.  The frame's fold gives the TensorCore's buffer contents at every boundary between @main's segments
  (`W0 … W19`); here each buffer a later segment reads is followed from the segment that writes it: a host
  stretch's result is its operation applied to what the stretch found, a region's output array is the region's
  whole-array function of the two arrays it was entered with, and a buffer a segment does not write is what the
  segment found.
-/
import proofs.«151925_j69157563400469_1_alg».proof.Proof.Gen.KernelIdeal.Frame
import proofs.«151925_j69157563400469_1_alg».proof.Proof.Terms
import proofs.«151925_j69157563400469_1_alg».proof.Proof.Region0
import proofs.«151925_j69157563400469_1_alg».proof.Proof.Region1
import proofs.«151925_j69157563400469_1_alg».proof.Proof.Region2
import proofs.«151925_j69157563400469_1_alg».proof.Proof.Region3
import proofs.«151925_j69157563400469_1_alg».proof.Proof.Region4
import proofs.«151925_j69157563400469_1_alg».proof.Proof.Region5
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

/-- A buffer's contents after a host stretch, computed operation by operation. -/
macro "host_read" ops:ident : tactic => `(tactic| (dsimp only [$ops:ident]; after_results_simp))

/-! ## The host stretches, from any contents `W` -/

section Host

variable {F : FTy → Type} [FloatOps F] (W : Valuation τ sig (Elt F))

/-- The nine stretches before the first region, as one fold. -/
abbrev pre9 : Valuation τ sig (Elt F) :=
  after hostOps0_8 (after hostOps0_7 (after hostOps0_6 (after hostOps0_5 (after hostOps0_4 (after hostOps0_3
    (after hostOps0_2 (after hostOps0_1 (after hostOps0 W))))))))

macro "pre_read" : tactic => `(tactic| (dsimp only [pre9, hostOps0, hostOps0_1, hostOps0_2, hostOps0_3, hostOps0_4, hostOps0_5, hostOps0_6, hostOps0_7, hostOps0_8]; after_results_simp))

theorem pre_v30 : pre9 W (Proc.devRef .tc main_v30) = Term.srcP (W (Proc.devRef .tc main_arg1)) := by
  pre_read <;> rfl
theorem pre_v31 : pre9 W (Proc.devRef .tc main_v31) = Term.dstP (W (Proc.devRef .tc main_arg1)) := by
  pre_read <;> rfl
theorem pre_v33 : pre9 W (Proc.devRef .tc main_v33) = Term.norm2d (F := F) (W (Proc.devRef .tc main_arg1)) := by
  pre_read <;> rfl
theorem pre_arg0 : pre9 W (Proc.devRef .tc main_arg0) = W (Proc.devRef .tc main_arg0) := by pre_read
theorem pre_arg2 : pre9 W (Proc.devRef .tc main_arg2) = W (Proc.devRef .tc main_arg2) := by pre_read
theorem pre_arg3 : pre9 W (Proc.devRef .tc main_arg3) = W (Proc.devRef .tc main_arg3) := by pre_read
theorem pre_arg4 : pre9 W (Proc.devRef .tc main_arg4) = W (Proc.devRef .tc main_arg4) := by pre_read
theorem pre_arg5 : pre9 W (Proc.devRef .tc main_arg5) = W (Proc.devRef .tc main_arg5) := by pre_read

/-- Between regions 0 and 1: the product's rows read at the sources. -/
theorem host1_v41 : after hostOps1 W (Proc.devRef .tc main_v41)
    = Host.gather gather_S100000x16_S6504448x1_S6504448x16_1_0_n_n_0_1_116 (W (Proc.devRef .tc main_v34))
        (broadcastInDim S6504448x1 ![0] bcast_S6504448_S6504448x1_0 (Term.wrapP (W (Proc.devRef .tc main_v30)))) := by
  host_read hostOps1 <;> rfl

/-- Between regions 1 and 2: the scaled rows summed by target node, and the bias as a row. -/
theorem host2_v45 : after hostOps2 W (Proc.devRef .tc main_v45)
    = Host.scatterAdd scatter_S100000x16_S6504448x1_S6504448x16_1_0_0_1
        (broadcastInDim S100000x16 ![] bcast_S_S100000x16 (constant S_ .f32 0x00000000#32))
        (broadcastInDim S6504448x1 ![0] bcast_S6504448_S6504448x1_0 (W (Proc.devRef .tc main_v31)))
        (W (Proc.devRef .tc main_v42)) := by
  host_read hostOps2 <;> rfl
theorem host2_v46 : after hostOps2 W (Proc.devRef .tc main_v46)
    = shapeCast S1x16 (W (Proc.devRef .tc main_arg3)) shapeCasts_S16_S1x16 := by
  host_read hostOps2 <;> rfl

/-- Between regions 3 and 4: the second product's rows read at the sources. -/
theorem host4_v55 : after hostOps4 W (Proc.devRef .tc main_v55)
    = Host.gather gather_S100000x8_S6504448x1_S6504448x8_1_0_n_n_0_1_18 (W (Proc.devRef .tc main_v48))
        (broadcastInDim S6504448x1 ![0] bcast_S6504448_S6504448x1_0 (Term.wrapP (W (Proc.devRef .tc main_v30)))) := by
  host_read hostOps4 <;> rfl

/-- Between regions 4 and 5: the scaled rows summed by target node, and the bias as a row. -/
theorem host5_v59 : after hostOps5 W (Proc.devRef .tc main_v59)
    = Host.scatterAdd scatter_S100000x8_S6504448x1_S6504448x8_1_0_0_1
        (broadcastInDim S100000x8 ![] bcast_S_S100000x8 (constant S_ .f32 0x00000000#32))
        (broadcastInDim S6504448x1 ![0] bcast_S6504448_S6504448x1_0 (W (Proc.devRef .tc main_v31)))
        (W (Proc.devRef .tc main_v56)) := by
  host_read hostOps5 <;> rfl
theorem host5_v60 : after hostOps5 W (Proc.devRef .tc main_v60)
    = shapeCast S1x8 (W (Proc.devRef .tc main_arg5)) shapeCasts_S8_S1x8 := by
  host_read hostOps5 <;> rfl

end Host

/-! ## What the later segments still need of the buffers written before the first region -/

/-- The lengthened sources, targets and weights and the three arguments read after the first region, in the
    buffers they were left in. -/
structure Carry (ei : IVec S2x6400000 32) (b1 : FVec Ideal S16 .f32) (w2 : FVec Ideal S16x8 .f32) (b2 : FVec Ideal S8 .f32)
    (W : Valuation τ sig (Elt Ideal)) : Prop where
  v30 : W (Proc.devRef .tc main_v30) = Term.srcP ei
  v31 : W (Proc.devRef .tc main_v31) = Term.dstP ei
  v33 : W (Proc.devRef .tc main_v33) = Term.norm2d (F := Ideal) ei
  a3 : W (Proc.devRef .tc main_arg3) = b1
  a4 : W (Proc.devRef .tc main_arg4) = w2
  a5 : W (Proc.devRef .tc main_arg5) = b2

section CarryHost

variable {ei : IVec S2x6400000 32} {b1 : FVec Ideal S16 .f32} {w2 : FVec Ideal S16x8 .f32} {b2 : FVec Ideal S8 .f32}
  {W : Valuation τ sig (Elt Ideal)}

theorem Carry.host1 (h : Carry ei b1 w2 b2 W) : Carry ei b1 w2 b2 (after hostOps1 W) :=
  ⟨(by host_read hostOps1 : after hostOps1 W (Proc.devRef .tc main_v30) = W (Proc.devRef .tc main_v30)).trans h.v30,
   (by host_read hostOps1 : after hostOps1 W (Proc.devRef .tc main_v31) = W (Proc.devRef .tc main_v31)).trans h.v31,
   (by host_read hostOps1 : after hostOps1 W (Proc.devRef .tc main_v33) = W (Proc.devRef .tc main_v33)).trans h.v33,
   (by host_read hostOps1 : after hostOps1 W (Proc.devRef .tc main_arg3) = W (Proc.devRef .tc main_arg3)).trans h.a3,
   (by host_read hostOps1 : after hostOps1 W (Proc.devRef .tc main_arg4) = W (Proc.devRef .tc main_arg4)).trans h.a4,
   (by host_read hostOps1 : after hostOps1 W (Proc.devRef .tc main_arg5) = W (Proc.devRef .tc main_arg5)).trans h.a5⟩

theorem Carry.host2 (h : Carry ei b1 w2 b2 W) : Carry ei b1 w2 b2 (after hostOps2 W) :=
  ⟨(by host_read hostOps2 : after hostOps2 W (Proc.devRef .tc main_v30) = W (Proc.devRef .tc main_v30)).trans h.v30,
   (by host_read hostOps2 : after hostOps2 W (Proc.devRef .tc main_v31) = W (Proc.devRef .tc main_v31)).trans h.v31,
   (by host_read hostOps2 : after hostOps2 W (Proc.devRef .tc main_v33) = W (Proc.devRef .tc main_v33)).trans h.v33,
   (by host_read hostOps2 : after hostOps2 W (Proc.devRef .tc main_arg3) = W (Proc.devRef .tc main_arg3)).trans h.a3,
   (by host_read hostOps2 : after hostOps2 W (Proc.devRef .tc main_arg4) = W (Proc.devRef .tc main_arg4)).trans h.a4,
   (by host_read hostOps2 : after hostOps2 W (Proc.devRef .tc main_arg5) = W (Proc.devRef .tc main_arg5)).trans h.a5⟩

theorem Carry.host4 (h : Carry ei b1 w2 b2 W) : Carry ei b1 w2 b2 (after hostOps4 W) :=
  ⟨(by host_read hostOps4 : after hostOps4 W (Proc.devRef .tc main_v30) = W (Proc.devRef .tc main_v30)).trans h.v30,
   (by host_read hostOps4 : after hostOps4 W (Proc.devRef .tc main_v31) = W (Proc.devRef .tc main_v31)).trans h.v31,
   (by host_read hostOps4 : after hostOps4 W (Proc.devRef .tc main_v33) = W (Proc.devRef .tc main_v33)).trans h.v33,
   (by host_read hostOps4 : after hostOps4 W (Proc.devRef .tc main_arg3) = W (Proc.devRef .tc main_arg3)).trans h.a3,
   (by host_read hostOps4 : after hostOps4 W (Proc.devRef .tc main_arg4) = W (Proc.devRef .tc main_arg4)).trans h.a4,
   (by host_read hostOps4 : after hostOps4 W (Proc.devRef .tc main_arg5) = W (Proc.devRef .tc main_arg5)).trans h.a5⟩

end CarryHost

/-! ## The run's boundaries -/

variable (m : (ℓ : Loc nD τ sig) → Buf (Elt Ideal) ℓ) (ρ : Dev nD → PrngReg) (c : Dev nD)

/-- At the first region's entry. -/
theorem carry9 : Carry (m ((c.tc : Thread nD τ).loc main_arg1)) (m ((c.tc : Thread nD τ).loc main_arg3)) (m ((c.tc : Thread nD τ).loc main_arg4)) (m ((c.tc : Thread nD τ).loc main_arg5)) (W9 m ρ c) :=
  ⟨pre_v30 (W0 m ρ c), pre_v31 (W0 m ρ c), pre_v33 (W0 m ρ c), pre_arg3 (W0 m ρ c), pre_arg4 (W0 m ρ c), pre_arg5 (W0 m ρ c)⟩

/-- Region 0 writes none of them. -/
theorem carry10 : Carry (m ((c.tc : Thread nD τ).loc main_arg1)) (m ((c.tc : Thread nD τ).loc main_arg3)) (m ((c.tc : Thread nD τ).loc main_arg4)) (m ((c.tc : Thread nD τ).loc main_arg5)) (W10 m ρ c) :=
  have h := carry9 m ρ c
  ⟨(W10_of_ne m ρ c main_v30 (by decide)).trans h.v30, (W10_of_ne m ρ c main_v31 (by decide)).trans h.v31,
   (W10_of_ne m ρ c main_v33 (by decide)).trans h.v33, (W10_of_ne m ρ c main_arg3 (by decide)).trans h.a3,
   (W10_of_ne m ρ c main_arg4 (by decide)).trans h.a4, (W10_of_ne m ρ c main_arg5 (by decide)).trans h.a5⟩

theorem carry11 : Carry (m ((c.tc : Thread nD τ).loc main_arg1)) (m ((c.tc : Thread nD τ).loc main_arg3)) (m ((c.tc : Thread nD τ).loc main_arg4)) (m ((c.tc : Thread nD τ).loc main_arg5)) (W11 m ρ c) := (carry10 m ρ c).host1

/-- Region 1 reads the weights' column through an input window and leaves it as entered. -/
theorem carry12 : Carry (m ((c.tc : Thread nD τ).loc main_arg1)) (m ((c.tc : Thread nD τ).loc main_arg3)) (m ((c.tc : Thread nD τ).loc main_arg4)) (m ((c.tc : Thread nD τ).loc main_arg5)) (W12 m ρ c) :=
  have h := carry11 m ρ c
  ⟨(W12_of_ne m ρ c main_v30 (by decide)).trans h.v30, (W12_of_ne m ρ c main_v31 (by decide)).trans h.v31,
   ((W12_arr m ρ c 1).trans (((dat1 (V11 m ρ) c).arrAt_in 1 rfl _).trans (A_eq1 (V11 m ρ) c 1))).trans h.v33,
   (W12_of_ne m ρ c main_arg3 (by decide)).trans h.a3,
   (W12_of_ne m ρ c main_arg4 (by decide)).trans h.a4, (W12_of_ne m ρ c main_arg5 (by decide)).trans h.a5⟩

theorem carry13 : Carry (m ((c.tc : Thread nD τ).loc main_arg1)) (m ((c.tc : Thread nD τ).loc main_arg3)) (m ((c.tc : Thread nD τ).loc main_arg4)) (m ((c.tc : Thread nD τ).loc main_arg5)) (W13 m ρ c) := (carry12 m ρ c).host2

/-- Region 2 writes none of them. -/
theorem carry14 : Carry (m ((c.tc : Thread nD τ).loc main_arg1)) (m ((c.tc : Thread nD τ).loc main_arg3)) (m ((c.tc : Thread nD τ).loc main_arg4)) (m ((c.tc : Thread nD τ).loc main_arg5)) (W14 m ρ c) :=
  have h := carry13 m ρ c
  ⟨(W14_of_ne m ρ c main_v30 (by decide)).trans h.v30, (W14_of_ne m ρ c main_v31 (by decide)).trans h.v31,
   (W14_of_ne m ρ c main_v33 (by decide)).trans h.v33, (W14_of_ne m ρ c main_arg3 (by decide)).trans h.a3,
   (W14_of_ne m ρ c main_arg4 (by decide)).trans h.a4, (W14_of_ne m ρ c main_arg5 (by decide)).trans h.a5⟩

/-- Region 3 reads the second weight matrix through an input window and leaves it as entered. -/
theorem carry15 : Carry (m ((c.tc : Thread nD τ).loc main_arg1)) (m ((c.tc : Thread nD τ).loc main_arg3)) (m ((c.tc : Thread nD τ).loc main_arg4)) (m ((c.tc : Thread nD τ).loc main_arg5)) (W15 m ρ c) :=
  have h := carry14 m ρ c
  ⟨(W15_of_ne m ρ c main_v30 (by decide)).trans h.v30, (W15_of_ne m ρ c main_v31 (by decide)).trans h.v31,
   (W15_of_ne m ρ c main_v33 (by decide)).trans h.v33, (W15_of_ne m ρ c main_arg3 (by decide)).trans h.a3,
   ((W15_arr m ρ c 1).trans (((dat3 (V14 m ρ) c).arrAt_in 1 rfl _).trans (A_eq3 (V14 m ρ) c 1))).trans h.a4,
   (W15_of_ne m ρ c main_arg5 (by decide)).trans h.a5⟩

theorem carry16 : Carry (m ((c.tc : Thread nD τ).loc main_arg1)) (m ((c.tc : Thread nD τ).loc main_arg3)) (m ((c.tc : Thread nD τ).loc main_arg4)) (m ((c.tc : Thread nD τ).loc main_arg5)) (W16 m ρ c) := (carry15 m ρ c).host4

/-- Region 4 reads the weights' column through an input window and leaves it as entered. -/
theorem carry17 : Carry (m ((c.tc : Thread nD τ).loc main_arg1)) (m ((c.tc : Thread nD τ).loc main_arg3)) (m ((c.tc : Thread nD τ).loc main_arg4)) (m ((c.tc : Thread nD τ).loc main_arg5)) (W17 m ρ c) :=
  have h := carry16 m ρ c
  ⟨(W17_of_ne m ρ c main_v30 (by decide)).trans h.v30, (W17_of_ne m ρ c main_v31 (by decide)).trans h.v31,
   ((W17_arr m ρ c 1).trans (((dat4 (V16 m ρ) c).arrAt_in 1 rfl _).trans (A_eq4 (V16 m ρ) c 1))).trans h.v33,
   (W17_of_ne m ρ c main_arg3 (by decide)).trans h.a3,
   (W17_of_ne m ρ c main_arg4 (by decide)).trans h.a4, (W17_of_ne m ρ c main_arg5 (by decide)).trans h.a5⟩

/-! ## The values, segment by segment -/

/-- After region 0: the first product. -/
theorem v34 : W10 m ρ c (Proc.devRef .tc main_v34) = Cert.Gcn.lin (m ((c.tc : Thread nD τ).loc main_arg0)) (m ((c.tc : Thread nD τ).loc main_arg2)) := by
  refine (W10_arr m ρ c 2).trans ((Region0.final (V9 m ρ) c).trans ?_)
  show Cert.Gcn.lin (W9 m ρ c (Proc.devRef .tc main_arg0)) (W9 m ρ c (Proc.devRef .tc main_arg2)) = _
  rw [show W9 m ρ c (Proc.devRef .tc main_arg0) = (m ((c.tc : Thread nD τ).loc main_arg0)) from pre_arg0 (W0 m ρ c),
    show W9 m ρ c (Proc.devRef .tc main_arg2) = (m ((c.tc : Thread nD τ).loc main_arg2)) from pre_arg2 (W0 m ρ c)]

/-- Before region 1: its rows at the sources. -/
theorem v41 : W11 m ρ c (Proc.devRef .tc main_v41)
    = Host.gather gather_S100000x16_S6504448x1_S6504448x16_1_0_n_n_0_1_116 (Cert.Gcn.lin (m ((c.tc : Thread nD τ).loc main_arg0)) (m ((c.tc : Thread nD τ).loc main_arg2))) (Term.srcIdx (m ((c.tc : Thread nD τ).loc main_arg1))) := by
  refine (host1_v41 (W10 m ρ c)).trans ?_
  rw [v34 m ρ c, (carry10 m ρ c).v30]
  rfl

/-- After region 1: the rows scaled by the edges' weights. -/
theorem v42 : W12 m ρ c (Proc.devRef .tc main_v42)
    = Cert.Gcn.scaleRows (Host.gather gather_S100000x16_S6504448x1_S6504448x16_1_0_n_n_0_1_116 (Cert.Gcn.lin (m ((c.tc : Thread nD τ).loc main_arg0)) (m ((c.tc : Thread nD τ).loc main_arg2))) (Term.srcIdx (m ((c.tc : Thread nD τ).loc main_arg1))))
        (Term.norm2d (F := Ideal) (m ((c.tc : Thread nD τ).loc main_arg1))) := by
  refine (W12_arr m ρ c 2).trans ((Region1.final (V11 m ρ) c).trans ?_)
  show Cert.Gcn.scaleRows (W11 m ρ c (Proc.devRef .tc main_v41)) (W11 m ρ c (Proc.devRef .tc main_v33)) = _
  rw [v41 m ρ c, (carry11 m ρ c).v33]

/-- Before region 2: the first layer's sum by target node, and its bias as a row. -/
theorem v45 : W13 m ρ c (Proc.devRef .tc main_v45) = Term.agg16 (Cert.Gcn.lin (m ((c.tc : Thread nD τ).loc main_arg0)) (m ((c.tc : Thread nD τ).loc main_arg2))) (m ((c.tc : Thread nD τ).loc main_arg1)) := by
  refine (host2_v45 (W12 m ρ c)).trans ?_
  rw [v42 m ρ c, (carry12 m ρ c).v31]
  rfl
theorem v46 : W13 m ρ c (Proc.devRef .tc main_v46) = shapeCast S1x16 (m ((c.tc : Thread nD τ).loc main_arg3)) shapeCasts_S16_S1x16 := by
  refine (host2_v46 (W12 m ρ c)).trans ?_
  rw [(carry12 m ρ c).a3]

/-- After region 2: the first layer's output. -/
theorem v47 : W14 m ρ c (Proc.devRef .tc main_v47) = Term.hidden (m ((c.tc : Thread nD τ).loc main_arg0)) (m ((c.tc : Thread nD τ).loc main_arg1)) (m ((c.tc : Thread nD τ).loc main_arg2)) (m ((c.tc : Thread nD τ).loc main_arg3)) := by
  refine (W14_arr m ρ c 2).trans ((Region2.final (V13 m ρ) c).trans ?_)
  show Cert.Gcn.reluAddRow (W13 m ρ c (Proc.devRef .tc main_v45)) (W13 m ρ c (Proc.devRef .tc main_v46)) = _
  rw [v45 m ρ c, v46 m ρ c]
  rfl

/-- After region 3: the second product. -/
theorem v48 : W15 m ρ c (Proc.devRef .tc main_v48) = Cert.Gcn.lin (Term.hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
  refine (W15_arr m ρ c 2).trans ((Region3.final (V14 m ρ) c).trans ?_)
  show Cert.Gcn.lin (W14 m ρ c (Proc.devRef .tc main_v47)) (W14 m ρ c (Proc.devRef .tc main_arg4)) = _
  rw [v47 m ρ c, (carry14 m ρ c).a4]

/-- Before region 4: its rows at the sources. -/
theorem v55 : W16 m ρ c (Proc.devRef .tc main_v55)
    = Host.gather gather_S100000x8_S6504448x1_S6504448x8_1_0_n_n_0_1_18 (Cert.Gcn.lin (Term.hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (Term.srcIdx (m ((c.tc : Thread nD τ).loc main_arg1))) := by
  refine (host4_v55 (W15 m ρ c)).trans ?_
  rw [v48 m ρ c, (carry15 m ρ c).v30]
  rfl

/-- After region 4: the rows scaled by the edges' weights. -/
theorem v56 : W17 m ρ c (Proc.devRef .tc main_v56)
    = Cert.Gcn.scaleRows (Host.gather gather_S100000x8_S6504448x1_S6504448x8_1_0_n_n_0_1_18 (Cert.Gcn.lin (Term.hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (Term.srcIdx (m ((c.tc : Thread nD τ).loc main_arg1))))
        (Term.norm2d (F := Ideal) (m ((c.tc : Thread nD τ).loc main_arg1))) := by
  refine (W17_arr m ρ c 2).trans ((Region4.final (V16 m ρ) c).trans ?_)
  show Cert.Gcn.scaleRows (W16 m ρ c (Proc.devRef .tc main_v55)) (W16 m ρ c (Proc.devRef .tc main_v33)) = _
  rw [v55 m ρ c, (carry16 m ρ c).v33]

/-- Before region 5: the second layer's sum by target node, and its bias as a row. -/
theorem v59 : W18 m ρ c (Proc.devRef .tc main_v59) = Term.agg8 (Cert.Gcn.lin (Term.hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg1)) := by
  refine (host5_v59 (W17 m ρ c)).trans ?_
  rw [v56 m ρ c, (carry17 m ρ c).v31]
  rfl
theorem v60 : W18 m ρ c (Proc.devRef .tc main_v60) = shapeCast S1x8 (m ((c.tc : Thread nD τ).loc main_arg5)) shapeCasts_S8_S1x8 := by
  refine (host5_v60 (W17 m ρ c)).trans ?_
  rw [(carry17 m ρ c).a5]

/-- THE RESULT ARRAY at the last boundary: the kernel program's composed term of the argument arrays. -/
theorem v61 : W19 m ρ c (Proc.devRef .tc main_v61) = Term.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W19_arr m ρ c 2).trans ((Region5.final (V18 m ρ) c).trans ?_)
  show Cert.Gcn.addRow (W18 m ρ c (Proc.devRef .tc main_v59)) (W18 m ρ c (Proc.devRef .tc main_v60)) = _
  rw [v59 m ρ c, v60 m ρ c]
  rfl

end Cert.KernelIdeal.Walk

end
-- ==== Proof.RefValue.lean ====
/-
  The reference program's result buffer after its run IS the composed term `Term.out` of the six argument arrays:
  the run's own composed term with its repeated sub-terms (the sources, the targets, the degrees, the edge
  weights, the two layers) named.
-/
import proofs.«151925_j69157563400469_1_alg».proof.Defs
import proofs.«151925_j69157563400469_1_alg».proof.Proof.RefRun
import proofs.«151925_j69157563400469_1_alg».proof.Proof.Terms

set_option maxRecDepth 16384

noncomputable section

namespace Cert.ReferenceIdeal.RefValue

open Cert.ReferenceIdeal Idealize.ShloMosaic Idealize.ShloMosaic.TcCoe Idealize.SL.Sem

variable {F : FTy → Type} [FloatOps F]

/-- The run's composed term, with its sub-terms named. -/
theorem res_eq (m : (ℓ : Loc nD τ sig) → Buf (Elt F) ℓ) (c : Dev nD) :
    RunP.res_main_v64 m c
      = Term.out (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold RunP.res_main_v64 Term.out Term.hidden Term.agg8 Term.agg16 Term.srcIdx Term.dstIdx Term.norm Term.dis Term.deg Term.wrap Term.src Term.dst
  rfl

/-- The reference's run with its result named: every weakly fair execution ends with the result buffer at
    `Term.out` of the launch contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64)
          = Term.out (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (res_eq m c), (h c).2⟩) (RunP.run m ρ)

end Cert.ReferenceIdeal.RefValue

end
-- ==== Proof.LibRows.lean ====
/-
  Whole rows read by an index column, and whole rows summed by an index column, over the extended reals.

  `x[idx]` for a table `x : [N, D]` and an index column `idx : [n, 1]` is a gather whose result row `r` is the
  table's row at `idx (r, 0)`, read as a signed integer and clamped into `[0, N − 1]`.  The sum of the rows of
  `u : [n, D]` by target row (a segment sum) is an accumulating scatter: entry `(t, c)` of the result is the
  operand's entry plus the sum of `u (r, c)` over the rows `r` whose index `idx (r, 0)` is `t`; a row whose index
  is outside `[0, N)` is dropped.

  The fact proved here: appending rows to the index columns and to the weights does not change a layer's sum,
  provided the appended rows carry weight zero.  Each appended row contributes `y · 0 = 0` (on the extended reals
  `y · 0 = 0` for every `y`, the infinities included), and a sum is unchanged by extra zero terms.
-/
import Idealize.ShloMosaic.PureOps.Ideal
import Idealize.ShloMosaic.Lib.ValueIdx
import proofs.«151925_j69157563400469_1_alg».proof.Proof.Spec

noncomputable section

namespace Cert.Rows

open Idealize.ShloMosaic Idealize.ShloMosaic.ValueIdx

/-- A gather's dimension numbers are those of "take whole rows": operand `[N, D]`, start indices `[n, 1]`
    (the index vector along axis 1), result `[n, D]`, the row axis collapsed and the column axis an offset axis. -/
structure IsRowGather {N D n : Nat}
    (d : GatherDims (⟨2, ![N, D]⟩ : Shape) (⟨2, ![n, 1]⟩ : Shape) (⟨2, ![n, D]⟩ : Shape)) : Prop where
  offsetDims : d.offsetDims = [1]
  collapsedSliceDims : d.collapsedSliceDims = [0]
  operandBatchingDims : d.operandBatchingDims = []
  startIndicesBatchingDims : d.startIndicesBatchingDims = []
  startIndexMap : d.startIndexMap = [0]
  indexVectorDim : d.indexVectorDim = 1
  sliceSizes : d.sliceSizes = ![1, D]

/-- A scatter's dimension numbers are those of "add whole rows": operand `[N, D]`, scatter indices `[n, 1]`
    (the index vector along axis 1), updates `[n, D]`, the row axis inserted and the column axis a window axis. -/
structure IsRowScatter {N D n : Nat}
    (d : ScatterDims (⟨2, ![N, D]⟩ : Shape) (⟨2, ![n, 1]⟩ : Shape) (⟨2, ![n, D]⟩ : Shape)) : Prop where
  updateWindowDims : d.updateWindowDims = [1]
  insertedWindowDims : d.insertedWindowDims = [0]
  scatterDimsToOperandDims : d.scatterDimsToOperandDims = [0]
  indexVectorDim : d.indexVectorDim = 1

/-- THE ROW GATHER READ AT `(r, c)`: the table at the row `idx (r, 0)`, read signed and clamped into `[0, N − 1]`,
    and at column `c`. -/
theorem gather_rows_apply {α : Type} {N D n w : Nat} (hN : 0 < N)
    (d : GatherDims (⟨2, ![N, D]⟩ : Shape) (⟨2, ![n, 1]⟩ : Shape) (⟨2, ![n, D]⟩ : Shape)) (hd : IsRowGather d)
    (x : (⟨2, ![N, D]⟩ : Shape).Idx → α) (idx : IVec (⟨2, ![n, 1]⟩ : Shape) w) (j : (⟨2, ![n, D]⟩ : Shape).Idx) :
    Host.gather d x idx j
      = x (ix2 (⟨min (idx (ix2 (j 0 : Fin n) (0 : Fin 1))).toInt.toNat (N - 1), by omega⟩ : Fin N) (j 1 : Fin D)) := by
  obtain ⟨od, cd, ob, sb, sm, iv, ss, wf⟩ := d
  obtain ⟨h1, h2, h3, h4, h5, h6, h7⟩ := hd
  simp only at h1 h2 h3 h4 h5 h6 h7
  subst h1 h2 h3 h4 h5 h6 h7
  unfold Host.gather
  congr 1
  funext a
  refine Fin.ext ?_
  match a with
  | ⟨0, h0⟩ =>
    show GatherDims.start _ j idx 0 + GatherDims.batchCoord _ j 0 + GatherDims.offCoord _ j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, D]⟩) (si := ⟨2, ![n, 1]⟩) (t := ⟨2, ![n, D]⟩)
        { offsetDims := [1], collapsedSliceDims := [0], operandBatchingDims := [], startIndicesBatchingDims := [],
          startIndexMap := [0], indexVectorDim := 1, sliceSizes := ![1, D], wf := wf } j
        ⟨List.idxOf (0 : Fin 2) [0], List.idxOf_lt_length_iff.2 (List.mem_singleton.mpr rfl)⟩
          = ix2 (j 0 : Fin n) (0 : Fin 1) := by
      funext b; refine Fin.ext ?_
      match b with
      | ⟨0, _⟩ => rfl
      | ⟨1, _⟩ => rfl
    rw [hsi]
    rfl
  | ⟨1, h1⟩ =>
    show GatherDims.start _ j idx 1 + GatherDims.batchCoord _ j 1 + GatherDims.offCoord _ j 1 = _
    rw [GatherDims.batchCoord_eq_zero _ _ _ List.not_mem_nil]
    unfold GatherDims.start
    rw [dif_neg (show (1 : Fin 2) ∉ [(0 : Fin 2)] by decide)]
    unfold GatherDims.offCoord
    rw [dif_pos ((GatherDims.mem_sKept _ _).mpr ⟨show (1 : Fin 2) ∉ [(0 : Fin 2)] by decide, List.not_mem_nil⟩)]
    simp only [Nat.zero_add]
    rfl

/-- Where an update lands, from the per-axis signed coordinates `f`: the index with those coordinates when each is
    inside its axis, nothing otherwise. -/
private def landing {s : Shape} (f : Fin s.rank → Int) : Option s.Idx :=
  if h : ∀ a, 0 ≤ f a ∧ f a < s.size a then some fun a => ⟨(f a).toNat, by have := h a; omega⟩ else none

/-- The signed coordinates of a row scatter's update `(r, c)`: the row's target `t` on axis 0, `c` on axis 1. -/
private def rowF (t : Int) (c : Nat) : Fin 2 → Int := fun a => match a with | ⟨0, _⟩ => t | ⟨1, _⟩ => (c : Int)

/-- A row scatter's update `(r, c)` has signed coordinate `idx (r, 0)` on the row axis (the start, no window
    offset on an inserted axis) and `c` on the column axis (start zero, the window coordinate). -/
private theorem scatter_rows_coord {N D n w : Nat}
    (d : ScatterDims (⟨2, ![N, D]⟩ : Shape) (⟨2, ![n, 1]⟩ : Shape) (⟨2, ![n, D]⟩ : Shape)) (hd : IsRowScatter d)
    (idx : IVec (⟨2, ![n, 1]⟩ : Shape) w) (j : (⟨2, ![n, D]⟩ : Shape).Idx) (a : Fin 2) :
    d.start j idx a + (d.window j a : Int) = rowF (idx (ix2 (j 0 : Fin n) (0 : Fin 1))).toInt (j 1 : Fin D).val a := by
  obtain ⟨uw, iw, sd, iv, wf⟩ := d
  obtain ⟨h1, h2, h3, h4⟩ := hd
  simp only at h1 h2 h3 h4
  subst h1 h2 h3 h4
  match a with
  | ⟨0, h0⟩ =>
    show ScatterDims.start _ j idx 0 + ((ScatterDims.window _ j 0 : Nat) : Int) = _
    unfold ScatterDims.start ScatterDims.window
    rw [dif_pos (List.mem_singleton.mpr rfl),
      dif_neg (show (0 : Fin 2) ∉ Shape.kept (⟨2, ![N, D]⟩ : Shape) [(0 : Fin 2)] by simp [Shape.kept])]
    have hsi : ScatterDims.siIdx (s := ⟨2, ![N, D]⟩) (si := ⟨2, ![n, 1]⟩) (u := ⟨2, ![n, D]⟩)
        { updateWindowDims := [1], insertedWindowDims := [0], scatterDimsToOperandDims := [0], indexVectorDim := 1,
          wf := wf } j
        ⟨List.idxOf (0 : Fin 2) [0], List.idxOf_lt_length_iff.2 (List.mem_singleton.mpr rfl)⟩
          = ix2 (j 0 : Fin n) (0 : Fin 1) := by
      funext b; refine Fin.ext ?_
      match b with
      | ⟨0, _⟩ => rfl
      | ⟨1, _⟩ => rfl
    rw [hsi]
    simp only [Nat.cast_zero, add_zero]
    rfl
  | ⟨1, h1⟩ =>
    show ScatterDims.start _ j idx 1 + ((ScatterDims.window _ j 1 : Nat) : Int) = _
    unfold ScatterDims.start ScatterDims.window
    rw [dif_neg (show (1 : Fin 2) ∉ [(0 : Fin 2)] by decide),
      dif_pos (show (1 : Fin 2) ∈ Shape.kept (⟨2, ![N, D]⟩ : Shape) [(0 : Fin 2)] by simp [Shape.kept])]
    simp only [zero_add]
    rfl

/-- A row scatter's update `(r, c)` lands on `(idx (r, 0), c)` when that row is inside the operand, and
    nowhere otherwise. -/
private theorem scatter_rows_resultIdx {N D n w : Nat}
    (d : ScatterDims (⟨2, ![N, D]⟩ : Shape) (⟨2, ![n, 1]⟩ : Shape) (⟨2, ![n, D]⟩ : Shape)) (hd : IsRowScatter d)
    (idx : IVec (⟨2, ![n, 1]⟩ : Shape) w) (j : (⟨2, ![n, D]⟩ : Shape).Idx) :
    d.resultIdx? j idx
      = landing (s := (⟨2, ![N, D]⟩ : Shape)) (rowF (idx (ix2 (j 0 : Fin n) (0 : Fin 1))).toInt (j 1 : Fin D).val) := by
  have h : (fun a : Fin 2 => d.start j idx a + (d.window j a : Int))
      = rowF (idx (ix2 (j 0 : Fin n) (0 : Fin 1))).toInt (j 1 : Fin D).val := funext (scatter_rows_coord d hd idx j)
  rw [← h]
  rfl

/-- A LAYER'S SUM IS UNCHANGED BY APPENDED ROWS OF WEIGHT ZERO.  On the longer side (`n'` rows) the message is
    the gathered row scaled by the row's weight `nK (r, 0)`; on the shorter side (`n ≤ n'` rows) it is the gathered
    entry times `nR (r, c)`.  If the two sides' source indices, target indices and weights agree on the first `n`
    rows and the longer side's weights vanish from row `n` on, the two accumulating scatters into the same
    operand `z` are equal. -/
theorem layer_pad {N D n n' w : Nat} (hn : n ≤ n') (hN : 0 < N)
    (gK : GatherDims (⟨2, ![N, D]⟩ : Shape) (⟨2, ![n', 1]⟩ : Shape) (⟨2, ![n', D]⟩ : Shape)) (hgK : IsRowGather gK)
    (gR : GatherDims (⟨2, ![N, D]⟩ : Shape) (⟨2, ![n, 1]⟩ : Shape) (⟨2, ![n, D]⟩ : Shape)) (hgR : IsRowGather gR)
    (sK : ScatterDims (⟨2, ![N, D]⟩ : Shape) (⟨2, ![n', 1]⟩ : Shape) (⟨2, ![n', D]⟩ : Shape)) (hsK : IsRowScatter sK)
    (sR : ScatterDims (⟨2, ![N, D]⟩ : Shape) (⟨2, ![n, 1]⟩ : Shape) (⟨2, ![n, D]⟩ : Shape)) (hsR : IsRowScatter sR)
    (hw z : (⟨2, ![N, D]⟩ : Shape).Idx → EReal)
    (srcK dstK : IVec (⟨2, ![n', 1]⟩ : Shape) w) (srcR dstR : IVec (⟨2, ![n, 1]⟩ : Shape) w)
    (nK : (⟨2, ![n', 1]⟩ : Shape).Idx → EReal) (nR : (⟨2, ![n, D]⟩ : Shape).Idx → EReal)
    (hsrc : ∀ r : Fin n, srcK (ix2 (Fin.castLE hn r) (0 : Fin 1)) = srcR (ix2 r (0 : Fin 1)))
    (hdst : ∀ r : Fin n, dstK (ix2 (Fin.castLE hn r) (0 : Fin 1)) = dstR (ix2 r (0 : Fin 1)))
    (hnorm : ∀ (r : Fin n) (c : Fin D), nK (ix2 (Fin.castLE hn r) (0 : Fin 1)) = nR (ix2 r c))
    (hzero : ∀ r : Fin n', n ≤ r.val → nK (ix2 r (0 : Fin 1)) = 0) :
    Ideal.hostScatterAdd sK z dstK (Cert.Gcn.scaleRows (Host.gather gK hw srcK) nK)
      = Ideal.hostScatterAdd sR z dstR (fun i => Host.gather gR hw srcR i * nR i) := by
  -- the short side's row `r` is the long side's row `r`
  let e : (⟨2, ![n, D]⟩ : Shape).Idx → (⟨2, ![n', D]⟩ : Shape).Idx :=
    fun j => ix2 (Fin.castLE hn (j 0 : Fin n)) (j 1 : Fin D)
  -- the two messages agree along it
  have hval : ∀ j : (⟨2, ![n, D]⟩ : Shape).Idx,
      Host.gather gR hw srcR j * nR j = Cert.Gcn.scaleRows (Host.gather gK hw srcK) nK (e j) := by
    intro j
    obtain ⟨r, c, rfl⟩ : ∃ (r : Fin n) (c : Fin D), j = ix2 r c := ⟨j 0, j 1, eq_ix2 j⟩
    show Host.gather gR hw srcR (ix2 r c) * nR (ix2 r c)
      = Host.gather gK hw srcK (ix2 (Fin.castLE hn r) c) * nK (ix2 (Fin.castLE hn r) (0 : Fin 1))
    rw [gather_rows_apply hN gK hgK, gather_rows_apply hN gR hgR, hnorm r c]
    show hw (ix2 ⟨min (srcR (ix2 r (0 : Fin 1))).toInt.toNat (N - 1), _⟩ c) * _
      = hw (ix2 ⟨min (srcK (ix2 (Fin.castLE hn r) (0 : Fin 1))).toInt.toNat (N - 1), _⟩ c) * _
    simp only [hsrc]
  -- and so do the rows they land on
  have hland : ∀ j : (⟨2, ![n, D]⟩ : Shape).Idx, sK.resultIdx? (e j) dstK = sR.resultIdx? j dstR := by
    intro j
    obtain ⟨r, c, rfl⟩ : ∃ (r : Fin n) (c : Fin D), j = ix2 r c := ⟨j 0, j 1, eq_ix2 j⟩
    rw [scatter_rows_resultIdx sK hsK, scatter_rows_resultIdx sR hsR]
    show landing (s := (⟨2, ![N, D]⟩ : Shape)) (rowF (dstK (ix2 (Fin.castLE hn r) (0 : Fin 1))).toInt c.val)
      = landing (s := (⟨2, ![N, D]⟩ : Shape)) (rowF (dstR (ix2 r (0 : Fin 1))).toInt c.val)
    rw [hdst]
  funext i
  unfold Ideal.hostScatterAdd
  congr 1
  symm
  refine Finset.sum_bij_ne_zero (fun j _ _ => e j) ?_ ?_ ?_ ?_
  · intro j hj _
    rw [Finset.mem_filter] at hj ⊢
    exact ⟨Finset.mem_univ _, (hland j).trans hj.2⟩
  · intro j₁ _ _ j₂ _ _ h
    have h0 : Fin.castLE hn (j₁ 0 : Fin n) = Fin.castLE hn (j₂ 0 : Fin n) := congrFun h 0
    have h1 : (j₁ 1 : Fin D) = (j₂ 1 : Fin D) := congrFun h 1
    funext a
    match a with
    | ⟨0, _⟩ => exact Fin.castLE_injective hn h0
    | ⟨1, _⟩ => exact h1
  · intro j' hj' hne
    have hlt : (j' 0 : Fin n').val < n := by
      by_contra hge
      apply hne
      show Host.gather gK hw srcK j' * nK (ix2 (j' 0 : Fin n') (0 : Fin 1)) = 0
      have hz : nK (ix2 (j' 0 : Fin n') (0 : Fin 1)) = 0 := hzero (j' 0 : Fin n') (by omega)
      rw [hz, mul_zero]
    have hj : e (ix2 (⟨(j' 0 : Fin n').val, hlt⟩ : Fin n) (j' 1 : Fin D)) = j' := by
      funext a
      match a with
      | ⟨0, _⟩ => rfl
      | ⟨1, _⟩ => rfl
    refine ⟨ix2 (⟨(j' 0 : Fin n').val, hlt⟩ : Fin n) (j' 1 : Fin D), ?_, ?_, hj⟩
    · rw [Finset.mem_filter] at hj' ⊢
      refine ⟨Finset.mem_univ _, ?_⟩
      rw [← hland, hj]; exact hj'.2
    · rw [hval, hj]; exact hne
  · intro j _ _
    exact hval j

end Cert.Rows

end
-- ==== Proof.BridgeAgg.lean ====
/-
  One layer's sum by target node is the same in the two programs.

  The kernel program lengthens the sources, the targets and the edge weights from 6500000 to 6504448 entries —
  node 0 and weight 0 in the 4448 new places — before it reads rows at the sources, scales them and sums them by
  target.  On the first 6500000 rows the two programs read the same row, scale it by the same weight and add it
  at the same node; each new row contributes `y · 0 = 0` at node 0.  So the sums agree (`Cert.Rows.layer_pad`).
-/
import proofs.«151925_j69157563400469_1_alg».proof.Proof.Terms
import proofs.«151925_j69157563400469_1_alg».proof.Proof.LibRows
import Idealize.ShloMosaic.Lib.ValueIdx
import Idealize.ShloMosaic.Lib.Pipeline.Value
import Idealize.ShloMosaic.Lib.KernelVsHost

set_option maxRecDepth 8192

noncomputable section

namespace Cert.Bridge

open Idealize.ShloMosaic Idealize.ShloMosaic.ValueIdx

/-! ## The two programs name the same sources, targets and weights -/

theorem src_eq (ei : IVec Cert.KernelIdeal.S2x6400000 32) : Cert.KernelIdeal.Term.src ei = Cert.ReferenceIdeal.Term.src ei := rfl
theorem dst_eq (ei : IVec Cert.KernelIdeal.S2x6400000 32) : Cert.KernelIdeal.Term.dst ei = Cert.ReferenceIdeal.Term.dst ei := rfl
theorem norm_eq (ei : IVec Cert.KernelIdeal.S2x6400000 32) :
    Cert.KernelIdeal.Term.norm (F := Ideal) ei = Cert.ReferenceIdeal.Term.norm (F := Ideal) ei := rfl

/-! ## Reading the lengthened arrays -/

theorem hn : 6500000 ≤ 6504448 := by decide

/-- A node index as array indexing reads it, on one word. -/
def wrapWord (b : BitVec 32) : BitVec 32 := Scalar.select (IntOp.cmpi .slt b 0#32) (IntOp.addi b 100000#32) b

theorem wrapP_apply (s : IVec Cert.KernelIdeal.S6504448 32) (i : Cert.KernelIdeal.S6504448.Idx) :
    Cert.KernelIdeal.Term.wrapP s i = wrapWord (s i) := rfl
theorem wrap_apply (s : IVec Cert.ReferenceIdeal.S6500000 32) (i : Cert.ReferenceIdeal.S6500000.Idx) :
    Cert.ReferenceIdeal.Term.wrap s i = wrapWord (s i) := rfl

/-- Below the old length the lengthened sources are the sources. -/
theorem srcP_inside (ei : IVec Cert.KernelIdeal.S2x6400000 32) (r : Fin 6500000) :
    Cert.KernelIdeal.Term.srcP ei (ix1 (Fin.castLE hn r)) = Cert.KernelIdeal.Term.src ei (ix1 r) := by
  unfold Cert.KernelIdeal.Term.srcP
  refine pad_apply_of_inside _ _ _ _ _ _ _ _ (ix1 r) (fun a => ?_)
  match a with
  | ⟨0, _⟩ => show r.val = 0 + r.val * (0 + 1); omega

/-- Below the old length the lengthened targets are the targets. -/
theorem dstP_inside (ei : IVec Cert.KernelIdeal.S2x6400000 32) (r : Fin 6500000) :
    Cert.KernelIdeal.Term.dstP ei (ix1 (Fin.castLE hn r)) = Cert.KernelIdeal.Term.dst ei (ix1 r) := by
  unfold Cert.KernelIdeal.Term.dstP
  refine pad_apply_of_inside _ _ _ _ _ _ _ _ (ix1 r) (fun a => ?_)
  match a with
  | ⟨0, _⟩ => show r.val = 0 + r.val * (0 + 1); omega

/-- Below the old length the lengthened weights are the weights. -/
theorem normP_inside (ei : IVec Cert.KernelIdeal.S2x6400000 32) (r : Fin 6500000) :
    Cert.KernelIdeal.Term.normP (F := Ideal) ei (ix1 (Fin.castLE hn r)) = Cert.KernelIdeal.Term.norm (F := Ideal) ei (ix1 r) := by
  unfold Cert.KernelIdeal.Term.normP
  refine pad_apply_of_inside _ _ _ _ _ _ _ _ (ix1 r) (fun a => ?_)
  match a with
  | ⟨0, _⟩ => show r.val = 0 + r.val * (0 + 1); omega

/-- From the old length on the lengthened weights are zero: the integer 0 converted. -/
theorem normP_outside (ei : IVec Cert.KernelIdeal.S2x6400000 32) (r : Fin 6504448) (hr : 6500000 ≤ r.val) :
    Cert.KernelIdeal.Term.normP (F := Ideal) ei (ix1 r) = 0 := by
  unfold Cert.KernelIdeal.Term.normP
  refine (pad_apply_of_not_inside _ _ _ _ _ _ _ (ix1 r) (0 : Fin 1) (fun h => ?_)).trans ?_
  · have h3 : (r.val - 0) / (0 + 1) < 6500000 := h.2.2
    simp at h3
    omega
  · show ((BitVec.toInt (0#32) : ℝ) : EReal) = 0
    simp

/-- A column `[n, 1]` made of a vector `[n]` reads the vector at the row. -/
theorem col_apply {α : Type} (s : Cert.KernelIdeal.S6504448.Idx → α) (r : Fin 6504448) :
    broadcastInDim Cert.KernelIdeal.S6504448x1 ![0] Cert.KernelIdeal.Facts₀.bcast_S6504448_S6504448x1_0 s (ix2 r (0 : Fin 1)) = s (ix1 r) := by
  refine broadcastInDim_apply _ _ _ _ (ix1 r) (fun a => ?_)
  match a with
  | ⟨0, _⟩ => show r.val = if (6504448 : Nat) = 1 then 0 else r.val; simp

theorem colR_apply {α : Type} (s : Cert.ReferenceIdeal.S6500000.Idx → α) (r : Fin 6500000) :
    broadcastInDim Cert.ReferenceIdeal.S6500000x1 ![0] Cert.ReferenceIdeal.Facts₀.bcast_S6500000_S6500000x1_0 s (ix2 r (0 : Fin 1)) = s (ix1 r) := by
  refine broadcastInDim_apply _ _ _ _ (ix1 r) (fun a => ?_)
  match a with
  | ⟨0, _⟩ => show r.val = if (6500000 : Nat) = 1 then 0 else r.val; simp

/-! ## The four facts the padding lemma asks for -/

theorem hsrc (ei : IVec Cert.KernelIdeal.S2x6400000 32) (r : Fin 6500000) :
    Cert.KernelIdeal.Term.srcIdx ei (ix2 (Fin.castLE hn r) (0 : Fin 1)) = Cert.ReferenceIdeal.Term.srcIdx ei (ix2 r (0 : Fin 1)) := by
  unfold Cert.KernelIdeal.Term.srcIdx Cert.ReferenceIdeal.Term.srcIdx
  rw [col_apply, colR_apply, wrapP_apply, wrap_apply, srcP_inside, src_eq]

theorem hdst (ei : IVec Cert.KernelIdeal.S2x6400000 32) (r : Fin 6500000) :
    Cert.KernelIdeal.Term.dstIdx ei (ix2 (Fin.castLE hn r) (0 : Fin 1)) = Cert.ReferenceIdeal.Term.dstIdx ei (ix2 r (0 : Fin 1)) := by
  unfold Cert.KernelIdeal.Term.dstIdx Cert.ReferenceIdeal.Term.dstIdx
  rw [col_apply, colR_apply, dstP_inside, dst_eq]

theorem hzero (ei : IVec Cert.KernelIdeal.S2x6400000 32) (r : Fin 6504448) (hr : 6500000 ≤ r.val) :
    Cert.KernelIdeal.Term.norm2d (F := Ideal) ei (ix2 r (0 : Fin 1)) = 0 := by
  unfold Cert.KernelIdeal.Term.norm2d
  rw [col_apply, normP_outside ei r hr]

theorem hnorm16 (ei : IVec Cert.KernelIdeal.S2x6400000 32) (r : Fin 6500000) (c : Fin 16) :
    Cert.KernelIdeal.Term.norm2d (F := Ideal) ei (ix2 (Fin.castLE hn r) (0 : Fin 1))
      = broadcastInDim Cert.ReferenceIdeal.S6500000x16 ![0, 1] Cert.ReferenceIdeal.Facts₀.bcast_S6500000x1_S6500000x16_0_1
          (broadcastInDim Cert.ReferenceIdeal.S6500000x1 ![0] Cert.ReferenceIdeal.Facts₀.bcast_S6500000_S6500000x1_0
            (Cert.ReferenceIdeal.Term.norm (F := Ideal) ei)) (ix2 r c) := by
  unfold Cert.KernelIdeal.Term.norm2d
  rw [col_apply, normP_inside, norm_eq]
  refine ((broadcastInDim_apply _ _ _ (ix2 r c) (ix2 r (0 : Fin 1)) (fun a => ?_)).trans (colR_apply _ r)).symm
  match a with
  | ⟨0, _⟩ => show r.val = if (6500000 : Nat) = 1 then 0 else r.val; simp
  | ⟨1, _⟩ => show (0 : Nat) = if (1 : Nat) = 1 then 0 else c.val; simp

theorem hnorm8 (ei : IVec Cert.KernelIdeal.S2x6400000 32) (r : Fin 6500000) (c : Fin 8) :
    Cert.KernelIdeal.Term.norm2d (F := Ideal) ei (ix2 (Fin.castLE hn r) (0 : Fin 1))
      = broadcastInDim Cert.ReferenceIdeal.S6500000x8 ![0, 1] Cert.ReferenceIdeal.Facts₀.bcast_S6500000x1_S6500000x8_0_1
          (broadcastInDim Cert.ReferenceIdeal.S6500000x1 ![0] Cert.ReferenceIdeal.Facts₀.bcast_S6500000_S6500000x1_0
            (Cert.ReferenceIdeal.Term.norm (F := Ideal) ei)) (ix2 r c) := by
  unfold Cert.KernelIdeal.Term.norm2d
  rw [col_apply, normP_inside, norm_eq]
  refine ((broadcastInDim_apply _ _ _ (ix2 r c) (ix2 r (0 : Fin 1)) (fun a => ?_)).trans (colR_apply _ r)).symm
  match a with
  | ⟨0, _⟩ => show r.val = if (6500000 : Nat) = 1 then 0 else r.val; simp
  | ⟨1, _⟩ => show (0 : Nat) = if (1 : Nat) = 1 then 0 else c.val; simp

/-! ## The layers' sums -/

/-- The first layer's sum by target node is the same in the two programs. -/
theorem agg16_eq (hw : FVec Ideal Cert.KernelIdeal.S100000x16 .f32) (ei : IVec Cert.KernelIdeal.S2x6400000 32) :
    Cert.KernelIdeal.Term.agg16 hw ei = Cert.ReferenceIdeal.Term.agg16 (F := Ideal) hw ei := by
  unfold Cert.KernelIdeal.Term.agg16 Cert.ReferenceIdeal.Term.agg16
  exact Cert.Rows.layer_pad (N := 100000) (D := 16) (n := 6500000) (n' := 6504448) hn (by decide)
    Cert.KernelIdeal.gather_S100000x16_S6504448x1_S6504448x16_1_0_n_n_0_1_116 ⟨rfl, rfl, rfl, rfl, rfl, rfl, rfl⟩
    Cert.ReferenceIdeal.gather_S100000x16_S6500000x1_S6500000x16_1_0_n_n_0_1_116 ⟨rfl, rfl, rfl, rfl, rfl, rfl, rfl⟩
    Cert.KernelIdeal.scatter_S100000x16_S6504448x1_S6504448x16_1_0_0_1 ⟨rfl, rfl, rfl, rfl⟩
    Cert.ReferenceIdeal.scatter_S100000x16_S6500000x1_S6500000x16_1_0_0_1 ⟨rfl, rfl, rfl, rfl⟩
    hw _ _ _ _ _ _ _ (hsrc ei) (hdst ei) (hnorm16 ei) (hzero ei)

/-- The second layer's sum by target node is the same in the two programs. -/
theorem agg8_eq (hw : FVec Ideal Cert.KernelIdeal.S100000x8 .f32) (ei : IVec Cert.KernelIdeal.S2x6400000 32) :
    Cert.KernelIdeal.Term.agg8 hw ei = Cert.ReferenceIdeal.Term.agg8 (F := Ideal) hw ei := by
  unfold Cert.KernelIdeal.Term.agg8 Cert.ReferenceIdeal.Term.agg8
  exact Cert.Rows.layer_pad (N := 100000) (D := 8) (n := 6500000) (n' := 6504448) hn (by decide)
    Cert.KernelIdeal.gather_S100000x8_S6504448x1_S6504448x8_1_0_n_n_0_1_18 ⟨rfl, rfl, rfl, rfl, rfl, rfl, rfl⟩
    Cert.ReferenceIdeal.gather_S100000x8_S6500000x1_S6500000x8_1_0_n_n_0_1_18 ⟨rfl, rfl, rfl, rfl, rfl, rfl, rfl⟩
    Cert.KernelIdeal.scatter_S100000x8_S6504448x1_S6504448x8_1_0_0_1 ⟨rfl, rfl, rfl, rfl⟩
    Cert.ReferenceIdeal.scatter_S100000x8_S6500000x1_S6500000x8_1_0_0_1 ⟨rfl, rfl, rfl, rfl⟩
    hw _ _ _ _ _ _ _ (hsrc ei) (hdst ei) (hnorm8 ei) (hzero ei)

end Cert.Bridge

end
-- ==== Proof.BridgeDense.lean ====
/-
  The dense steps of a layer, as the whole-array functions of the specification, are the reference program's host
  operations: the matrix product is the host's `dot_general` (both are `∑ k, x (r, k) · w (k, c)` on the extended
  reals), "add the bias row" is the host's sum with the bias broadcast down the rows, and "add the bias row, then
  the maximum with zero" is that sum followed by the host's maximum with a broadcast zero.
-/
import proofs.«151925_j69157563400469_1_alg».proof.Proof.Terms
import Idealize.ShloMosaic.Lib.ValueIdx
import Idealize.ShloMosaic.Lib.ValueLayout
import Idealize.ShloMosaic.Lib.Pipeline.Value
import Idealize.ShloMosaic.PureOps.Ideal.Laws

set_option maxRecDepth 8192

noncomputable section

namespace Cert.Bridge

open Idealize.ShloMosaic Idealize.ShloMosaic.ValueIdx

/-! ## The two matrix products -/

/-- The left operand's row is the output's row. -/
theorem lhs16_0 (j : Cert.ReferenceIdeal.S100000x16.Idx) (k : Cert.ReferenceIdeal.dot_S100000x128_S128x16_S100000x16_1_0_0_1_n_n.contr.Idx) :
    (Cert.ReferenceIdeal.dot_S100000x128_S128x16_S100000x16_1_0_0_1_n_n.lhsIdx j k 0).val = (j 0).val := by
  simp [DotDims.lhsIdx, Cert.ReferenceIdeal.dot_S100000x128_S128x16_S100000x16_1_0_0_1_n_n]; rfl

/-- The left operand's column is the summation index. -/
theorem lhs16_1 (j : Cert.ReferenceIdeal.S100000x16.Idx) (k : Cert.ReferenceIdeal.dot_S100000x128_S128x16_S100000x16_1_0_0_1_n_n.contr.Idx) :
    (Cert.ReferenceIdeal.dot_S100000x128_S128x16_S100000x16_1_0_0_1_n_n.lhsIdx j k 1).val = (k ⟨0, by decide⟩).val :=
  DotDims.lhsIdx_val_of_single (d := Cert.ReferenceIdeal.dot_S100000x128_S128x16_S100000x16_1_0_0_1_n_n) (cl := 1) rfl j k

/-- The right operand's row is the summation index. -/
theorem rhs16_0 (j : Cert.ReferenceIdeal.S100000x16.Idx) (k : Cert.ReferenceIdeal.dot_S100000x128_S128x16_S100000x16_1_0_0_1_n_n.contr.Idx) :
    (Cert.ReferenceIdeal.dot_S100000x128_S128x16_S100000x16_1_0_0_1_n_n.rhsIdx j k 0).val = (k ⟨0, by decide⟩).val :=
  DotDims.rhsIdx_val_of_single (d := Cert.ReferenceIdeal.dot_S100000x128_S128x16_S100000x16_1_0_0_1_n_n) (cr := 0) rfl j k

/-- The right operand's column is the output's column. -/
theorem rhs16_1 (j : Cert.ReferenceIdeal.S100000x16.Idx) (k : Cert.ReferenceIdeal.dot_S100000x128_S128x16_S100000x16_1_0_0_1_n_n.contr.Idx) :
    (Cert.ReferenceIdeal.dot_S100000x128_S128x16_S100000x16_1_0_0_1_n_n.rhsIdx j k 1).val = (j 1).val := by
  simp [DotDims.rhsIdx, Cert.ReferenceIdeal.dot_S100000x128_S128x16_S100000x16_1_0_0_1_n_n]; rfl

/-- The first layer's product: the specification's `lin` is the reference's `dot_general` of [100000, 128] by [128, 16]. -/
theorem lin16_eq (x : FVec Ideal Cert.ReferenceIdeal.S100000x128 .f32) (w : FVec Ideal Cert.ReferenceIdeal.S128x16 .f32) :
    Cert.Gcn.lin x w
      = Host.dotGeneral Cert.ReferenceIdeal.dot_S100000x128_S128x16_S100000x16_1_0_0_1_n_n none x w := by
  funext i
  simp only [Host.dotGeneral]
  rw [Ideal.dotGeneral_apply,
    ← Equiv.sum_comp (contrEquiv1 Cert.ReferenceIdeal.dot_S100000x128_S128x16_S100000x16_1_0_0_1_n_n 128 rfl rfl).symm]
  unfold Cert.Gcn.lin
  refine Finset.sum_congr rfl fun k _ => ?_
  refine congrArg₂ (· * ·) (congrArg x (funext fun a => Fin.ext ?_)) (congrArg w (funext fun a => Fin.ext ?_))
  · match a with
    | ⟨0, _⟩ => exact (lhs16_0 _ _).symm
    | ⟨1, _⟩ => exact ((lhs16_1 _ _).trans (contrEquiv1_symm_val _ 128 rfl rfl k)).symm
  · match a with
    | ⟨0, _⟩ => exact ((rhs16_0 _ _).trans (contrEquiv1_symm_val _ 128 rfl rfl k)).symm
    | ⟨1, _⟩ => exact (rhs16_1 _ _).symm

/-- The left operand's row is the output's row. -/
theorem lhs8_0 (j : Cert.ReferenceIdeal.S100000x8.Idx) (k : Cert.ReferenceIdeal.dot_S100000x16_S16x8_S100000x8_1_0_0_1_n_n.contr.Idx) :
    (Cert.ReferenceIdeal.dot_S100000x16_S16x8_S100000x8_1_0_0_1_n_n.lhsIdx j k 0).val = (j 0).val := by
  simp [DotDims.lhsIdx, Cert.ReferenceIdeal.dot_S100000x16_S16x8_S100000x8_1_0_0_1_n_n]; rfl

/-- The left operand's column is the summation index. -/
theorem lhs8_1 (j : Cert.ReferenceIdeal.S100000x8.Idx) (k : Cert.ReferenceIdeal.dot_S100000x16_S16x8_S100000x8_1_0_0_1_n_n.contr.Idx) :
    (Cert.ReferenceIdeal.dot_S100000x16_S16x8_S100000x8_1_0_0_1_n_n.lhsIdx j k 1).val = (k ⟨0, by decide⟩).val :=
  DotDims.lhsIdx_val_of_single (d := Cert.ReferenceIdeal.dot_S100000x16_S16x8_S100000x8_1_0_0_1_n_n) (cl := 1) rfl j k

/-- The right operand's row is the summation index. -/
theorem rhs8_0 (j : Cert.ReferenceIdeal.S100000x8.Idx) (k : Cert.ReferenceIdeal.dot_S100000x16_S16x8_S100000x8_1_0_0_1_n_n.contr.Idx) :
    (Cert.ReferenceIdeal.dot_S100000x16_S16x8_S100000x8_1_0_0_1_n_n.rhsIdx j k 0).val = (k ⟨0, by decide⟩).val :=
  DotDims.rhsIdx_val_of_single (d := Cert.ReferenceIdeal.dot_S100000x16_S16x8_S100000x8_1_0_0_1_n_n) (cr := 0) rfl j k

/-- The right operand's column is the output's column. -/
theorem rhs8_1 (j : Cert.ReferenceIdeal.S100000x8.Idx) (k : Cert.ReferenceIdeal.dot_S100000x16_S16x8_S100000x8_1_0_0_1_n_n.contr.Idx) :
    (Cert.ReferenceIdeal.dot_S100000x16_S16x8_S100000x8_1_0_0_1_n_n.rhsIdx j k 1).val = (j 1).val := by
  simp [DotDims.rhsIdx, Cert.ReferenceIdeal.dot_S100000x16_S16x8_S100000x8_1_0_0_1_n_n]; rfl

/-- The second layer's product: `lin` is the reference's `dot_general` of [100000, 16] by [16, 8]. -/
theorem lin8_eq (h : FVec Ideal Cert.ReferenceIdeal.S100000x16 .f32) (w : FVec Ideal Cert.ReferenceIdeal.S16x8 .f32) :
    Cert.Gcn.lin h w
      = Host.dotGeneral Cert.ReferenceIdeal.dot_S100000x16_S16x8_S100000x8_1_0_0_1_n_n none h w := by
  funext i
  simp only [Host.dotGeneral]
  rw [Ideal.dotGeneral_apply,
    ← Equiv.sum_comp (contrEquiv1 Cert.ReferenceIdeal.dot_S100000x16_S16x8_S100000x8_1_0_0_1_n_n 16 rfl rfl).symm]
  unfold Cert.Gcn.lin
  refine Finset.sum_congr rfl fun k _ => ?_
  refine congrArg₂ (· * ·) (congrArg h (funext fun a => Fin.ext ?_)) (congrArg w (funext fun a => Fin.ext ?_))
  · match a with
    | ⟨0, _⟩ => exact (lhs8_0 _ _).symm
    | ⟨1, _⟩ => exact ((lhs8_1 _ _).trans (contrEquiv1_symm_val _ 16 rfl rfl k)).symm
  · match a with
    | ⟨0, _⟩ => exact ((rhs8_0 _ _).trans (contrEquiv1_symm_val _ 16 rfl rfl k)).symm
    | ⟨1, _⟩ => exact (rhs8_1 _ _).symm

/-! ## The bias rows -/

/-- The first layer's bias and maximum: the kernel program's bias row (the bias reshaped to [1, 16]) added to every row and
    the maximum with zero, against the reference's two broadcasts of the bias, its sum, and its maximum with a
    broadcast zero word. -/
theorem reluAddRow_eq (a : FVec Ideal Cert.ReferenceIdeal.S100000x16 .f32) (b : FVec Ideal Cert.ReferenceIdeal.S16 .f32) :
    Cert.Gcn.reluAddRow a (shapeCast Cert.KernelIdeal.S1x16 b Cert.KernelIdeal.Facts₀.shapeCasts_S16_S1x16)
      = maximumf (addf a (broadcastInDim Cert.ReferenceIdeal.S100000x16 ![0, 1] Cert.ReferenceIdeal.Facts₀.bcast_S1x16_S100000x16_0_1
            (broadcastInDim Cert.ReferenceIdeal.S1x16 ![1] Cert.ReferenceIdeal.Facts₀.bcast_S16_S1x16_1 b)))
          (broadcastInDim Cert.ReferenceIdeal.S100000x16 ![] Cert.ReferenceIdeal.Facts₀.bcast_S_S100000x16
            (constant Cert.ReferenceIdeal.S_ .f32 0x00000000#32)) := by
  funext i
  obtain ⟨p, q, rfl⟩ : ∃ (p : Fin 100000) (q : Fin 16), i = ix2 p q := ⟨i 0, i 1, eq_ix2 i⟩
  have hrow : shapeCast Cert.KernelIdeal.S1x16 b Cert.KernelIdeal.Facts₀.shapeCasts_S16_S1x16 (ix2 (0 : Fin 1) q) = b (ix1 q) :=
    shapeCast_apply b _ _ _ (by
      rw [Shape.rowMajor_val_one, Shape.rowMajor_val_two]
      show q.val = 0 * 16 + q.val
      omega)
  have hbc : broadcastInDim Cert.ReferenceIdeal.S100000x16 ![0, 1] Cert.ReferenceIdeal.Facts₀.bcast_S1x16_S100000x16_0_1
      (broadcastInDim Cert.ReferenceIdeal.S1x16 ![1] Cert.ReferenceIdeal.Facts₀.bcast_S16_S1x16_1 b) (ix2 p q) = b (ix1 q) :=
    (broadcastInDim_apply _ _ _ (ix2 p q) (ix2 (0 : Fin 1) q) (fun a => by
      match a with
      | ⟨0, _⟩ => rfl
      | ⟨1, _⟩ => rfl)).trans
      (broadcastInDim_apply _ _ _ (ix2 (0 : Fin 1) q) (ix1 q) (fun a => by
        match a with
        | ⟨0, _⟩ => rfl))
  have hzero : broadcastInDim Cert.ReferenceIdeal.S100000x16 ![] Cert.ReferenceIdeal.Facts₀.bcast_S_S100000x16
      (constant (F := Ideal) Cert.ReferenceIdeal.S_ .f32 0x00000000#32) (ix2 p q) = 0 :=
    (broadcastInDim_apply _ _ _ (ix2 p q) ix0 (fun a => a.elim0)).trans
      ((constant_apply _ _).trans Ideal.ofBits_zero_f32)
  rw [maximumf_apply, addf_apply, hbc, hzero]
  show max (a (ix2 p q) + shapeCast Cert.KernelIdeal.S1x16 b Cert.KernelIdeal.Facts₀.shapeCasts_S16_S1x16 (ix2 (0 : Fin 1) q)) 0 = _
  rw [hrow]

/-- The second layer's bias: the bias row (the bias reshaped to [1, 8]) added to every row, against the reference's
    two broadcasts of the bias and its sum. -/
theorem addRow_eq (a : FVec Ideal Cert.ReferenceIdeal.S100000x8 .f32) (b : FVec Ideal Cert.ReferenceIdeal.S8 .f32) :
    Cert.Gcn.addRow a (shapeCast Cert.KernelIdeal.S1x8 b Cert.KernelIdeal.Facts₀.shapeCasts_S8_S1x8)
      = addf a (broadcastInDim Cert.ReferenceIdeal.S100000x8 ![0, 1] Cert.ReferenceIdeal.Facts₀.bcast_S1x8_S100000x8_0_1
          (broadcastInDim Cert.ReferenceIdeal.S1x8 ![1] Cert.ReferenceIdeal.Facts₀.bcast_S8_S1x8_1 b)) := by
  funext i
  obtain ⟨p, q, rfl⟩ : ∃ (p : Fin 100000) (q : Fin 8), i = ix2 p q := ⟨i 0, i 1, eq_ix2 i⟩
  have hrow : shapeCast Cert.KernelIdeal.S1x8 b Cert.KernelIdeal.Facts₀.shapeCasts_S8_S1x8 (ix2 (0 : Fin 1) q) = b (ix1 q) :=
    shapeCast_apply b _ _ _ (by
      rw [Shape.rowMajor_val_one, Shape.rowMajor_val_two]
      show q.val = 0 * 8 + q.val
      omega)
  have hbc : broadcastInDim Cert.ReferenceIdeal.S100000x8 ![0, 1] Cert.ReferenceIdeal.Facts₀.bcast_S1x8_S100000x8_0_1
      (broadcastInDim Cert.ReferenceIdeal.S1x8 ![1] Cert.ReferenceIdeal.Facts₀.bcast_S8_S1x8_1 b) (ix2 p q) = b (ix1 q) :=
    (broadcastInDim_apply _ _ _ (ix2 p q) (ix2 (0 : Fin 1) q) (fun a => by
      match a with
      | ⟨0, _⟩ => rfl
      | ⟨1, _⟩ => rfl)).trans
      (broadcastInDim_apply _ _ _ (ix2 (0 : Fin 1) q) (ix1 q) (fun a => by
        match a with
        | ⟨0, _⟩ => rfl))
  rw [addf_apply, hbc]
  show a (ix2 p q) + shapeCast Cert.KernelIdeal.S1x8 b Cert.KernelIdeal.Facts₀.shapeCasts_S8_S1x8 (ix2 (0 : Fin 1) q) = _
  rw [hrow]

end Cert.Bridge

end
-- ==== Proof.Bridge.lean ====
/-
  THE TWO PROGRAMS COMPUTE THE SAME FUNCTION of the six argument arrays, on the extended reals.

  Layer by layer: the product is the same sum of products; the sum by target node is the same because the rows the
  kernel program appended carry weight zero; the bias and the maximum are the same pointwise operations.
-/
import proofs.«151925_j69157563400469_1_alg».proof.Proof.BridgeAgg
import proofs.«151925_j69157563400469_1_alg».proof.Proof.BridgeDense

set_option maxRecDepth 8192

noncomputable section

namespace Cert.Bridge

open Idealize.ShloMosaic

/-- The first layer's output is the same in the two programs. -/
theorem hidden_eq (x : FVec Ideal Cert.KernelIdeal.S100000x128 .f32) (ei : IVec Cert.KernelIdeal.S2x6400000 32)
    (w1 : FVec Ideal Cert.KernelIdeal.S128x16 .f32) (b1 : FVec Ideal Cert.KernelIdeal.S16 .f32) :
    Cert.KernelIdeal.Term.hidden x ei w1 b1 = Cert.ReferenceIdeal.Term.hidden (F := Ideal) x ei w1 b1 := by
  unfold Cert.KernelIdeal.Term.hidden Cert.ReferenceIdeal.Term.hidden
  rw [lin16_eq, agg16_eq, reluAddRow_eq]

/-- The results are the same in the two programs. -/
theorem out_eq (x : FVec Ideal Cert.KernelIdeal.S100000x128 .f32) (ei : IVec Cert.KernelIdeal.S2x6400000 32)
    (w1 : FVec Ideal Cert.KernelIdeal.S128x16 .f32) (b1 : FVec Ideal Cert.KernelIdeal.S16 .f32)
    (w2 : FVec Ideal Cert.KernelIdeal.S16x8 .f32) (b2 : FVec Ideal Cert.KernelIdeal.S8 .f32) :
    Cert.KernelIdeal.Term.out x ei w1 b1 w2 b2 = Cert.ReferenceIdeal.Term.out (F := Ideal) x ei w1 b1 w2 b2 := by
  unfold Cert.KernelIdeal.Term.out Cert.ReferenceIdeal.Term.out
  rw [hidden_eq, lin8_eq, agg8_eq, addRow_eq]

end Cert.Bridge

end
-- ==== Proof.lean ====
/-
  A two-layer graph convolution written as six TPU kernels (two matrix products, two "scale each gathered row by its
  edge's weight" passes, two bias passes) with the irregular gathers and sums by target node left to the host,
  against the same network written with plain array operations.

  The three frames: the two kernel programs' are the generated frame certificates; the reference has no kernel
  and its frame is its run with the result dropped.  The idealization rewrote nothing, so `preserves` is trivial.
  The value claim: at the ideal instance the kernel program's result array ends at one composed term of the six
  argument arrays (each region's output array is a whole-array function of its two inputs, each host stretch an
  operation of what it found), the reference's result at another, and the two terms are the same function: a
  matrix product is the same sum of products however it is cut into blocks of rows; the kernel program's 4448
  appended edges have weight zero, so each adds `y · 0 = 0` to a sum; bias and maximum are pointwise.  No
  finiteness of the inputs is used.
-/
import proofs.«151925_j69157563400469_1_alg».proof.Defs
import proofs.«151925_j69157563400469_1_alg».proof.Proof.Gen.Kernel
import proofs.«151925_j69157563400469_1_alg».proof.Proof.Gen.Kernel.Skeleton
import proofs.«151925_j69157563400469_1_alg».proof.Proof.Gen.Kernel.Launch
import proofs.«151925_j69157563400469_1_alg».proof.Proof.Gen.Kernel.Points
import proofs.«151925_j69157563400469_1_alg».proof.Proof.Gen.Kernel.Frame
import proofs.«151925_j69157563400469_1_alg».proof.Proof.Gen.KernelIdeal
import proofs.«151925_j69157563400469_1_alg».proof.Proof.Gen.KernelIdeal.Skeleton
import proofs.«151925_j69157563400469_1_alg».proof.Proof.Gen.KernelIdeal.Launch
import proofs.«151925_j69157563400469_1_alg».proof.Proof.Gen.KernelIdeal.Points
import proofs.«151925_j69157563400469_1_alg».proof.Proof.Gen.KernelIdeal.Frame
import proofs.«151925_j69157563400469_1_alg».proof.Proof.Gen.ReferenceIdeal
import proofs.«151925_j69157563400469_1_alg».proof.Proof.Gen.Pre_finite_inputs
import proofs.«151925_j69157563400469_1_alg».proof.Proof.KernelRun
import proofs.«151925_j69157563400469_1_alg».proof.Proof.KernelValue
import proofs.«151925_j69157563400469_1_alg».proof.Proof.RefValue
import proofs.«151925_j69157563400469_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both programs run; the kernel program's result is its composed term of its arguments, the reference's result
    its composed term of arguments that agree with those; the two terms are one function. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.Walk.v61 m ρ c), (h c).2⟩)
      (Cert.KernelIdeal.Gen.run_out (F := Ideal) m ρ), ?_⟩
  refine (θ_run Cert.ReferenceIdeal.defs _ _).mono (fun r h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2]
  exact (Cert.Bridge.out_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
